-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S65536 : Shape := ⟨1, ![65536]⟩
abbrev S131072 : Shape := ⟨1, ![131072]⟩
abbrev S512 : Shape := ⟨1, ![512]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S65536 : S_.BroadcastsInDim S65536 (![] : Fin 0 → Fin S65536.rank)
  reducesTo_S65536_S_d0 : S65536.ReducesTo [0] S_
  bcast_S_S131072 : S_.BroadcastsInDim S131072 (![] : Fin 0 → Fin S131072.rank)
  reducesTo_S131072_S_d0 : S131072.ReducesTo [0] S_
  bcast_S_S512 : S_.BroadcastsInDim S512 (![] : Fin 0 → Fin S512.rank)
  reducesTo_S512_S_d0 : S512.ReducesTo [0] S_

variable [Facts]

def fn_part2 {F : FTy → Type} [FloatOps F] (main_arg4 : IVec S131072 32) (main_arg5 : IVec S131072 32) (main_v32 : IVec S_ 1) (main_c_12 : IVec S_ 32) : IVec S_ 1 :=
  let main_v33 : IVec S131072 32 := broadcastInDim S131072 ![] bcast_S_S131072 main_c_12
  let main_v34 : IVec S131072 1 := cmpi .sge main_arg4 main_v33
  let main_c_13 : IVec S_ 32 := constantI S_ 32 1024#32
  let main_v35 : IVec S131072 32 := broadcastInDim S131072 ![] bcast_S_S131072 main_c_13
  let main_v36 : IVec S131072 1 := cmpi .slt main_arg4 main_v35
  let main_v37 : IVec S131072 1 := andi main_v34 main_v36
  let main_c_14 : IVec S_ 1 := constantI S_ 1 1#1
  let main_v38 : IVec S_ 1 := (fun x v => Host.reduce IntOp.andi x v reducesTo_S131072_S_d0 h_S_) main_v37 main_c_14
  let main_v39 : IVec S_ 1 := andi main_v32 main_v38
  let main_c_15 : IVec S_ 32 := constantI S_ 32 0#32
  let main_v40 : IVec S131072 32 := broadcastInDim S131072 ![] bcast_S_S131072 main_c_15
  let main_v41 : IVec S131072 1 := cmpi .sge main_arg5 main_v40
  let main_c_16 : IVec S_ 32 := constantI S_ 32 2048#32
  let main_v42 : IVec S131072 32 := broadcastInDim S131072 ![] bcast_S_S131072 main_c_16
  let main_v43 : IVec S131072 1 := cmpi .slt main_arg5 main_v42
  let main_v44 : IVec S131072 1 := andi main_v41 main_v43
  let main_c_17 : IVec S_ 1 := constantI S_ 1 1#1
  let main_v45 : IVec S_ 1 := (fun x v => Host.reduce IntOp.andi x v reducesTo_S131072_S_d0 h_S_) main_v44 main_c_17
  let main_v46 : IVec S_ 1 := andi main_v39 main_v45
  main_v46

def fn_part1 {F : FTy → Type} [FloatOps F] (main_arg1 : IVec S65536 32) (main_arg2 : IVec S65536 32) (main_arg4 : IVec S131072 32) (main_arg5 : IVec S131072 32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_c_6 : IVec S_ 32 := constantI S_ 32 0#32
  let main_v19 : IVec S65536 32 := broadcastInDim S65536 ![] bcast_S_S65536 main_c_6
  let main_v20 : IVec S65536 1 := cmpi .sge main_arg1 main_v19
  let main_c_7 : IVec S_ 32 := constantI S_ 32 1024#32
  let main_v21 : IVec S65536 32 := broadcastInDim S65536 ![] bcast_S_S65536 main_c_7
  let main_v22 : IVec S65536 1 := cmpi .slt main_arg1 main_v21
  let main_v23 : IVec S65536 1 := andi main_v20 main_v22
  let main_c_8 : IVec S_ 1 := constantI S_ 1 1#1
  let main_v24 : IVec S_ 1 := (fun x v => Host.reduce IntOp.andi x v reducesTo_S65536_S_d0 h_S_) main_v23 main_c_8
  let main_v25 : IVec S_ 1 := andi main_v18 main_v24
  let main_c_9 : IVec S_ 32 := constantI S_ 32 0#32
  let main_v26 : IVec S65536 32 := broadcastInDim S65536 ![] bcast_S_S65536 main_c_9
  let main_v27 : IVec S65536 1 := cmpi .sge main_arg2 main_v26
  let main_c_10 : IVec S_ 32 := constantI S_ 32 1024#32
  let main_v28 : IVec S65536 32 := broadcastInDim S65536 ![] bcast_S_S65536 main_c_10
  let main_v29 : IVec S65536 1 := cmpi .slt main_arg2 main_v28
  let main_v30 : IVec S65536 1 := andi main_v27 main_v29
  let main_c_11 : IVec S_ 1 := constantI S_ 1 1#1
  let main_v31 : IVec S_ 1 := (fun x v => Host.reduce IntOp.andi x v reducesTo_S65536_S_d0 h_S_) main_v30 main_c_11
  let main_v32 : IVec S_ 1 := andi main_v25 main_v31
  let main_c_12 : IVec S_ 32 := constantI S_ 32 0#32
  fn_part2 (F := F) main_arg4 main_arg5 main_v32 main_c_12

def fn {F : FTy → Type} [FloatOps F] (main_arg0 : FVec F S2048x1024 .f32) (main_arg1 : IVec S65536 32) (main_arg2 : IVec S65536 32) (main_arg3 : FVec F S65536 .f32) (main_arg4 : IVec S131072 32) (main_arg5 : IVec S131072 32) (main_arg6 : FVec F S131072 .f32) (main_arg7 : IVec S512 32) (main_arg8 : FVec F S512 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S65536 .f32 := Host.absf main_arg3
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S131072 .f32 := Host.absf main_arg6
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S512 .f32 := Host.absf main_arg8
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg2 main_arg4 main_arg5 main_v13 main_v16
-- ==== Kernel.lean ====
abbrev S2048x1024 : Shape := ⟨2, ![2048, 1024]⟩
abbrev S65536 : Shape := ⟨1, ![65536]⟩
abbrev S131072 : Shape := ⟨1, ![131072]⟩
abbrev S512 : Shape := ⟨1, ![512]⟩
abbrev S_ : Shape := ⟨0, ![]⟩
abbrev S1048576 : Shape := ⟨1, ![1048576]⟩
abbrev S65536x1 : Shape := ⟨2, ![65536, 1]⟩
abbrev S1024x1024 : Shape := ⟨2, ![1024, 1024]⟩
abbrev S2097152 : Shape := ⟨1, ![2097152]⟩
abbrev S131072x1 : Shape := ⟨2, ![131072, 1]⟩
abbrev S1024 : Shape := ⟨1, ![1024]⟩
abbrev S512x1 : Shape := ⟨2, ![512, 1]⟩
abbrev S1x1024 : Shape := ⟨2, ![1, 1024]⟩
abbrev S256x1024 : Shape := ⟨2, ![256, 1024]⟩

abbrev nBuf : Space → Nat
  | .hbm => 59
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S65536, .i32⟩
  | .hbm, ⟨2, _⟩ => ⟨S65536, .i32⟩
  | .hbm, ⟨3, _⟩ => ⟨S65536, .f32⟩
  | .hbm, ⟨4, _⟩ => ⟨S131072, .i32⟩
  | .hbm, ⟨5, _⟩ => ⟨S131072, .i32⟩
  | .hbm, ⟨6, _⟩ => ⟨S131072, .f32⟩
  | .hbm, ⟨7, _⟩ => ⟨S512, .i32⟩
  | .hbm, ⟨8, _⟩ => ⟨S512, .f32⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S_, .f32⟩
  | .hbm, ⟨14, _⟩ => ⟨S1048576, .f32⟩
  | .hbm, ⟨15, _⟩ => ⟨S_, .i32⟩
  | .hbm, ⟨16, _⟩ => ⟨S65536, .i32⟩
  | .hbm, ⟨17, _⟩ => ⟨S65536, .i1⟩
  | .hbm, ⟨18, _⟩ => ⟨S_, .i32⟩
  | .hbm, ⟨19, _⟩ => ⟨S65536, .i32⟩
  | .hbm, ⟨20, _⟩ => ⟨S65536, .i32⟩
  | .hbm, ⟨21, _⟩ => ⟨S65536, .i32⟩
  | .hbm, ⟨22, _⟩ => ⟨S65536x1, .i32⟩
  | .hbm, ⟨23, _⟩ => ⟨S1048576, .f32⟩
  | .hbm, ⟨24, _⟩ => ⟨S1024x1024, .f32⟩
  | .hbm, ⟨25, _⟩ => ⟨S_, .i32⟩
  | .hbm, ⟨26, _⟩ => ⟨S131072, .i32⟩
  | .hbm, ⟨27, _⟩ => ⟨S131072, .i32⟩
  | .hbm, ⟨28, _⟩ => ⟨S131072, .i32⟩
  | .hbm, ⟨29, _⟩ => ⟨S_, .f32⟩
  | .hbm, ⟨30, _⟩ => ⟨S2097152, .f32⟩
  | .hbm, ⟨31, _⟩ => ⟨S_, .i32⟩
  | .hbm, ⟨32, _⟩ => ⟨S131072, .i32⟩
  | .hbm, ⟨33, _⟩ => ⟨S131072, .i1⟩
  | .hbm, ⟨34, _⟩ => ⟨S_, .i32⟩
  | .hbm, ⟨35, _⟩ => ⟨S131072, .i32⟩
  | .hbm, ⟨36, _⟩ => ⟨S131072, .i32⟩
  | .hbm, ⟨37, _⟩ => ⟨S131072, .i32⟩
  | .hbm, ⟨38, _⟩ => ⟨S131072x1, .i32⟩
  | .hbm, ⟨39, _⟩ => ⟨S2097152, .f32⟩
  | .hbm, ⟨40, _⟩ => ⟨S2048x1024, .f32⟩
  | .hbm, ⟨41, _⟩ => ⟨S1024x1024, .f32⟩
  | .hbm, ⟨42, _⟩ => ⟨S1024x1024, .f32⟩
  | .hbm, ⟨43, _⟩ => ⟨S_, .f32⟩
  | .hbm, ⟨44, _⟩ => ⟨S1024, .f32⟩
  | .hbm, ⟨45, _⟩ => ⟨S_, .i32⟩
  | .hbm, ⟨46, _⟩ => ⟨S512, .i32⟩
  | .hbm, ⟨47, _⟩ => ⟨S512, .i1⟩
  | .hbm, ⟨48, _⟩ => ⟨S_, .i32⟩
  | .hbm, ⟨49, _⟩ => ⟨S512, .i32⟩
  | .hbm, ⟨50, _⟩ => ⟨S512, .i32⟩
  | .hbm, ⟨51, _⟩ => ⟨S512, .i32⟩
  | .hbm, ⟨52, _⟩ => ⟨S512x1, .i32⟩
  | .hbm, ⟨53, _⟩ => ⟨S1024, .f32⟩
  | .hbm, ⟨54, _⟩ => ⟨S1x1024, .f32⟩
  | .hbm, ⟨55, _⟩ => ⟨S1024x1024, .bf16⟩
  | .hbm, ⟨56, _⟩ => ⟨S1024x1024, .bf16⟩
  | .hbm, ⟨57, _⟩ => ⟨S1024x1024, .bf16⟩
  | .hbm, ⟨58, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_c_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S65536 : S_.BroadcastsInDim S65536 (![] : Fin 0 → Fin S65536.rank)
  bcast_S_S1048576 : S_.BroadcastsInDim S1048576 (![] : Fin 0 → Fin S1048576.rank)
  bcast_S65536_S65536x1_0 : S65536.BroadcastsInDim S65536x1 (![0] : Fin 1 → Fin S65536x1.rank)
  shapeCasts_S1048576_S1024x1024 : S1048576.ShapeCasts S1024x1024
  bcast_S_S131072 : S_.BroadcastsInDim S131072 (![] : Fin 0 → Fin S131072.rank)
  bcast_S_S2097152 : S_.BroadcastsInDim S2097152 (![] : Fin 0 → Fin S2097152.rank)
  bcast_S131072_S131072x1_0 : S131072.BroadcastsInDim S131072x1 (![0] : Fin 1 → Fin S131072x1.rank)
  shapeCasts_S2097152_S2048x1024 : S2097152.ShapeCasts S2048x1024
  slices_S2048x1024_S1024x1024_0_0 : S2048x1024.Slices ![0, 0] S1024x1024
  slices_S2048x1024_S1024x1024_1024_0 : S2048x1024.Slices ![1024, 0] S1024x1024
  bcast_S_S1024 : S_.BroadcastsInDim S1024 (![] : Fin 0 → Fin S1024.rank)
  bcast_S_S512 : S_.BroadcastsInDim S512 (![] : Fin 0 → Fin S512.rank)
  bcast_S512_S512x1_0 : S512.BroadcastsInDim S512x1 (![0] : Fin 1 → Fin S512x1.rank)
  bcast_S1024_S1x1024_1 : S1024.BroadcastsInDim S1x1024 (![1] : Fin 1 → Fin S1x1024.rank)
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  scatter_S1048576_S65536x1_S65536_n_0_0_1_wf : ScatterDims.WF S1048576 S65536x1 S65536 [] [0] [0] 1
  scatter_S2097152_S131072x1_S131072_n_0_0_1_wf : ScatterDims.WF S2097152 S131072x1 S131072 [] [0] [0] 1
  scatter_S1024_S512x1_S512_n_0_0_1_wf : ScatterDims.WF S1024 S512x1 S512 [] [0] [0] 1
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S2048x1024.size a
  hwx0_5 : ∀ i : grid0.Coords, EltTy.bits .f32 = 32 ∨ (Rect.block (s := S2048x1024) S256x1024.size (cc0_transform_5 i) (hinb0_5 i)).WholeWords (EltTy.packing .f32)

variable [Facts₀]

def scatter_S1048576_S65536x1_S65536_n_0_0_1 : ScatterDims S1048576 S65536x1 S65536 where
  updateWindowDims := []
  insertedWindowDims := [0]
  scatterDimsToOperandDims := [0]
  indexVectorDim := 1
  wf := scatter_S1048576_S65536x1_S65536_n_0_0_1_wf
def scatter_S2097152_S131072x1_S131072_n_0_0_1 : ScatterDims S2097152 S131072x1 S131072 where
  updateWindowDims := []
  insertedWindowDims := [0]
  scatterDimsToOperandDims := [0]
  indexVectorDim := 1
  wf := scatter_S2097152_S131072x1_S131072_n_0_0_1_wf
def scatter_S1024_S512x1_S512_n_0_0_1 : ScatterDims S1024 S512x1 S512 where
  updateWindowDims := []
  insertedWindowDims := [0]
  scatterDimsToOperandDims := [0]
  indexVectorDim := 1
  wf := scatter_S1024_S512x1_S512_n_0_0_1_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S65536 : Shape := ⟨1, ![65536]⟩
abbrev S131072 : Shape := ⟨1, ![131072]⟩
abbrev S512 : Shape := ⟨1, ![512]⟩
abbrev S65536x1 : Shape := ⟨2, ![65536, 1]⟩
abbrev S1024x2048 : Shape := ⟨2, ![1024, 2048]⟩
abbrev S_ : Shape := ⟨0, ![]⟩
abbrev S65536x2048 : Shape := ⟨2, ![65536, 2048]⟩
abbrev S2048x2048 : Shape := ⟨2, ![2048, 2048]⟩
abbrev S1024 : Shape := ⟨1, ![1024]⟩
abbrev S512x1 : Shape := ⟨2, ![512, 1]⟩
abbrev S131072x1 : Shape := ⟨2, ![131072, 1]⟩
abbrev S131072x2048 : Shape := ⟨2, ![131072, 2048]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S65536, .i32⟩
  | .hbm, ⟨2, _⟩ => ⟨S65536, .i32⟩
  | .hbm, ⟨3, _⟩ => ⟨S65536, .f32⟩
  | .hbm, ⟨4, _⟩ => ⟨S131072, .i32⟩
  | .hbm, ⟨5, _⟩ => ⟨S131072, .i32⟩
  | .hbm, ⟨6, _⟩ => ⟨S131072, .f32⟩
  | .hbm, ⟨7, _⟩ => ⟨S512, .i32⟩
  | .hbm, ⟨8, _⟩ => ⟨S512, .f32⟩
  | .hbm, ⟨9, _⟩ => ⟨S65536x1, .f32⟩
  | .hbm, ⟨10, _⟩ => ⟨S1024x2048, .f32⟩
  | .hbm, ⟨11, _⟩ => ⟨S_, .i32⟩
  | .hbm, ⟨12, _⟩ => ⟨S65536, .i32⟩
  | .hbm, ⟨13, _⟩ => ⟨S65536, .i1⟩
  | .hbm, ⟨14, _⟩ => ⟨S_, .i32⟩
  | .hbm, ⟨15, _⟩ => ⟨S65536, .i32⟩
  | .hbm, ⟨16, _⟩ => ⟨S65536, .i32⟩
  | .hbm, ⟨17, _⟩ => ⟨S65536, .i32⟩
  | .hbm, ⟨18, _⟩ => ⟨S65536x1, .i32⟩
  | .hbm, ⟨19, _⟩ => ⟨S65536x2048, .f32⟩
  | .hbm, ⟨20, _⟩ => ⟨S65536x2048, .f32⟩
  | .hbm, ⟨21, _⟩ => ⟨S65536x2048, .f32⟩
  | .hbm, ⟨22, _⟩ => ⟨S_, .f32⟩
  | .hbm, ⟨23, _⟩ => ⟨S1024x2048, .f32⟩
  | .hbm, ⟨24, _⟩ => ⟨S65536x1, .i32⟩
  | .hbm, ⟨25, _⟩ => ⟨S1024x2048, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x2048, .f32⟩
  | .hbm, ⟨31, _⟩ => ⟨S_, .f32⟩
  | .hbm, ⟨32, _⟩ => ⟨S1024, .f32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S512, .i32⟩
  | .hbm, ⟨40, _⟩ => ⟨S512x1, .i32⟩
  | .hbm, ⟨41, _⟩ => ⟨S1024, .f32⟩
  | .hbm, ⟨42, _⟩ => ⟨S131072x1, .f32⟩
  | .hbm, ⟨43, _⟩ => ⟨S2048x2048, .f32⟩
  | .hbm, ⟨44, _⟩ => ⟨S_, .i32⟩
  | .hbm, ⟨45, _⟩ => ⟨S131072, .i32⟩
  | .hbm, ⟨46, _⟩ => ⟨S131072, .i1⟩
  | .hbm, ⟨47, _⟩ => ⟨S_, .i32⟩
  | .hbm, ⟨48, _⟩ => ⟨S131072, .i32⟩
  | .hbm, ⟨49, _⟩ => ⟨S131072, .i32⟩
  | .hbm, ⟨50, _⟩ => ⟨S131072, .i32⟩
  | .hbm, ⟨51, _⟩ => ⟨S131072x1, .i32⟩
  | .hbm, ⟨52, _⟩ => ⟨S131072x2048, .f32⟩
  | .hbm, ⟨53, _⟩ => ⟨S131072x2048, .f32⟩
  | .hbm, ⟨54, _⟩ => ⟨S131072x2048, .f32⟩
  | .hbm, ⟨55, _⟩ => ⟨S_, .f32⟩
  | .hbm, ⟨56, _⟩ => ⟨S1024x2048, .f32⟩
  | .hbm, ⟨57, _⟩ => ⟨S131072x1, .i32⟩
  | .hbm, ⟨58, _⟩ => ⟨S1024x2048, .f32⟩
  | .hbm, ⟨59, _⟩ => ⟨S2048x1024, .f32⟩
  | .hbm, ⟨60, _⟩ => ⟨S1x1024, .f32⟩
  | .hbm, ⟨61, _⟩ => ⟨S2048x1024, .f32⟩
  | .hbm, ⟨62, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_cst : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  bcast_S65536_S65536x1_0 : S65536.BroadcastsInDim S65536x1 (![0] : Fin 1 → Fin S65536x1.rank)
  transposes_S2048x1024_S1024x2048_1_0 : S2048x1024.Transposes [1, 0] S1024x2048
  bcast_S_S65536 : S_.BroadcastsInDim S65536 (![] : Fin 0 → Fin S65536.rank)
  bcast_S65536x1_S65536x2048_0_1 : S65536x1.BroadcastsInDim S65536x2048 (![0, 1] : Fin 2 → Fin S65536x2048.rank)
  bcast_S_S1024x2048 : S_.BroadcastsInDim S1024x2048 (![] : Fin 0 → Fin S1024x2048.rank)
  transposes_S1024x2048_S2048x1024_1_0 : S1024x2048.Transposes [1, 0] S2048x1024
  bcast_S_S2048x1024 : S_.BroadcastsInDim S2048x1024 (![] : Fin 0 → Fin S2048x1024.rank)
  concatenates_S2048x1024_S2048x1024_S2048x2048_d1 : Shape.Concatenates [S2048x1024, S2048x1024] S2048x2048 1
  bcast_S_S1024 : S_.BroadcastsInDim S1024 (![] : Fin 0 → Fin S1024.rank)
  bcast_S_S512 : S_.BroadcastsInDim S512 (![] : Fin 0 → Fin S512.rank)
  bcast_S512_S512x1_0 : S512.BroadcastsInDim S512x1 (![0] : Fin 1 → Fin S512x1.rank)
  bcast_S131072_S131072x1_0 : S131072.BroadcastsInDim S131072x1 (![0] : Fin 1 → Fin S131072x1.rank)
  transposes_S2048x2048_S2048x2048_1_0 : S2048x2048.Transposes [1, 0] S2048x2048
  bcast_S_S131072 : S_.BroadcastsInDim S131072 (![] : Fin 0 → Fin S131072.rank)
  bcast_S131072x1_S131072x2048_0_1 : S131072x1.BroadcastsInDim S131072x2048 (![0, 1] : Fin 2 → Fin S131072x2048.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  gather_S1024x2048_S65536x1_S65536x2048_1_0_n_n_0_1_12048_wf : GatherDims.WF S1024x2048 S65536x1 S65536x2048 [1] [0] [] [0] [] 1 ![1, 2048]
  scatter_S1024x2048_S65536x1_S65536x2048_1_0_0_1_wf : ScatterDims.WF S1024x2048 S65536x1 S65536x2048 [1] [0] [0] 1
  scatter_S1024_S512x1_S512_n_0_0_1_wf : ScatterDims.WF S1024 S512x1 S512 [] [0] [0] 1
  gather_S2048x2048_S131072x1_S131072x2048_1_0_n_n_0_1_12048_wf : GatherDims.WF S2048x2048 S131072x1 S131072x2048 [1] [0] [] [0] [] 1 ![1, 2048]
  scatter_S1024x2048_S131072x1_S131072x2048_1_0_0_1_wf : ScatterDims.WF S1024x2048 S131072x1 S131072x2048 [1] [0] [0] 1

variable [Facts₀]

def gather_S1024x2048_S65536x1_S65536x2048_1_0_n_n_0_1_12048 : GatherDims S1024x2048 S65536x1 S65536x2048 where
  offsetDims := [1]
  collapsedSliceDims := [0]
  operandBatchingDims := []
  startIndicesBatchingDims := []
  startIndexMap := [0]
  indexVectorDim := 1
  sliceSizes := ![1, 2048]
  wf := gather_S1024x2048_S65536x1_S65536x2048_1_0_n_n_0_1_12048_wf
def scatter_S1024x2048_S65536x1_S65536x2048_1_0_0_1 : ScatterDims S1024x2048 S65536x1 S65536x2048 where
  updateWindowDims := [1]
  insertedWindowDims := [0]
  scatterDimsToOperandDims := [0]
  indexVectorDim := 1
  wf := scatter_S1024x2048_S65536x1_S65536x2048_1_0_0_1_wf
def scatter_S1024_S512x1_S512_n_0_0_1 : ScatterDims S1024 S512x1 S512 where
  updateWindowDims := []
  insertedWindowDims := [0]
  scatterDimsToOperandDims := [0]
  indexVectorDim := 1
  wf := scatter_S1024_S512x1_S512_n_0_0_1_wf
def gather_S2048x2048_S131072x1_S131072x2048_1_0_n_n_0_1_12048 : GatherDims S2048x2048 S131072x1 S131072x2048 where
  offsetDims := [1]
  collapsedSliceDims := [0]
  operandBatchingDims := []
  startIndicesBatchingDims := []
  startIndexMap := [0]
  indexVectorDim := 1
  sliceSizes := ![1, 2048]
  wf := gather_S2048x2048_S131072x1_S131072x2048_1_0_n_n_0_1_12048_wf
def scatter_S1024x2048_S131072x1_S131072x2048_1_0_0_1 : ScatterDims S1024x2048 S131072x1 S131072x2048 where
  updateWindowDims := [1]
  insertedWindowDims := [0]
  scatterDimsToOperandDims := [0]
  indexVectorDim := 1
  wf := scatter_S1024x2048_S131072x1_S131072x2048_1_0_0_1_wf

class Facts : Prop extends Facts₀ where

variable [Facts]
-- ==== Proof.Spec.lean ====
/-
  The two programs' results as functions of the argument arrays, entry by entry, over the extended reals.

  Both programs compute  out[b, r] = Σ_i [w_rows i = r] · w_vals i · x2[b, w_cols i]  +  bias[r],  where
  x2 = [x | h] joined along the feature axis and  h[b, r] = max(Σ_i [e_rows i = r] · e_vals i · x[b, e_cols i], 0).
  The reference gathers a column of x2 per nonzero and adds the scaled columns into the row its row index names
  (`outR`).  The kernel first makes each sparse weight dense — entry (c, r) of the transposed weight is the sum of
  the values whose FLATTENED position  col · 1024 + row  is  c · 1024 + r  — and then multiplies dense matrices
  (`outK`).  The sparse bias is made dense the same way by both.
-/
import Idealize.ShloMosaic.PureOps
import Idealize.ShloMosaic.Lib.ValueIdx

noncomputable section

namespace Cert.Spmm

open Idealize.ShloMosaic Idealize.ShloMosaic.ValueIdx

/-- jnp's wrap of a possibly negative index into an axis of `n` entries: `w + n` when `w < 0`, else `w`. -/
def wrapIdx (n w : BitVec 32) : BitVec 32 := Scalar.select (IntOp.cmpi .slt w 0#32) (IntOp.addi w n) w

/-- The flattened position `col · M + row` of an entry, wrapped into an array of `tot` entries. -/
def flatIdx (M tot col row : BitVec 32) : BitVec 32 := wrapIdx tot (IntOp.addi (IntOp.muli col M) row)

/-- A start index read signed and clamped into `[0, n − 1]`: the row a gather reads. -/
def clampIdx (n : Nat) (hn : 0 < n) (w : BitVec 32) : Fin n := ⟨min w.toInt.toNat (n - 1), by omega⟩

/-- The sum of the values `v i` over the entries `i` whose key word, read signed, is `k`. -/
def fiberSum {n : Nat} (key : Fin n → BitVec 32) (v : Fin n → EReal) (k : Int) : EReal :=
  ∑ i ∈ Finset.univ.filter (fun i : Fin n => (key i).toInt = k), v i

section
variable (x : Fin 2048 → Fin 1024 → EReal)
  (er ec : Fin 65536 → BitVec 32) (ev : Fin 65536 → EReal)
  (wr wc : Fin 131072 → BitVec 32) (wv : Fin 131072 → EReal)
  (bi : Fin 512 → BitVec 32) (bv : Fin 512 → EReal)

/-- The dense sparse bias, entry `r` (both programs build it so). -/
def bias (r : Fin 1024) : EReal := fiberSum (fun i => wrapIdx 1024#32 (bi i)) bv (r.val : Int)

/-! ### The kernel's side: dense weights, then matrix products -/

/-- The dense transposed embed weight, entry (input feature `j`, new feature `k`). -/
def denseE (j k : Fin 1024) : EReal :=
  fiberSum (fun i => flatIdx 1024#32 1048576#32 (ec i) (er i)) ev ((j.val * 1024 + k.val : Nat) : Int)

/-- The dense transposed main weight, entry (joined feature `j`, output feature `k`). -/
def denseM (j : Fin 2048) (k : Fin 1024) : EReal :=
  fiberSum (fun i => flatIdx 1024#32 2097152#32 (wc i) (wr i)) wv ((j.val * 1024 + k.val : Nat) : Int)

/-- The kernel's hidden activations. -/
def hidK (b : Fin 2048) (k : Fin 1024) : EReal := max (∑ j : Fin 1024, x b j * denseE er ec ev j k) 0

/-- The kernel's result, entry (b, r). -/
def outK (b : Fin 2048) (r : Fin 1024) : EReal :=
  (∑ k : Fin 1024, x b k * denseM wr wc wv ⟨k.val, by omega⟩ r
    + ∑ k : Fin 1024, hidK x er ec ev b k * denseM wr wc wv ⟨k.val + 1024, by omega⟩ r)
  + bias bi bv r

/-! ### The reference's side: gather a column per nonzero, add it into its row -/

/-- The reference's hidden activations. -/
def hidR (b : Fin 2048) (r : Fin 1024) : EReal :=
  max (∑ i ∈ Finset.univ.filter (fun i : Fin 65536 => (er i).toInt = (r.val : Int)),
        ev i * x b (clampIdx 1024 (by decide) (wrapIdx 1024#32 (ec i)))) 0

/-- The joined features [x | h], entry (b, c). -/
def joinR (b : Fin 2048) (c : Fin 2048) : EReal :=
  if h : c.val < 1024 then x b ⟨c.val, h⟩ else hidR x er ec ev b ⟨c.val - 1024, by omega⟩

/-- The reference's result, entry (b, r). -/
def outR (b : Fin 2048) (r : Fin 1024) : EReal :=
  (∑ i ∈ Finset.univ.filter (fun i : Fin 131072 => (wr i).toInt = (r.val : Int)),
      wv i * joinR x er ec ev b (clampIdx 2048 (by decide) (wrapIdx 2048#32 (wc i))))
  + bias bi bv r

/-- What the precondition says of the arguments: the float entries are real numbers, and every row and column index
    names a row or column of the weight it indexes. -/
structure Admissible : Prop where
  hx : ∀ b k, ∃ t : ℝ, x b k = (t : EReal)
  hev : ∀ i, ∃ t : ℝ, ev i = (t : EReal)
  hwv : ∀ i, ∃ t : ℝ, wv i = (t : EReal)
  her : ∀ i, 0 ≤ (er i).toInt ∧ (er i).toInt < 1024
  hec : ∀ i, 0 ≤ (ec i).toInt ∧ (ec i).toInt < 1024
  hwr : ∀ i, 0 ≤ (wr i).toInt ∧ (wr i).toInt < 1024
  hwc : ∀ i, 0 ≤ (wc i).toInt ∧ (wc i).toInt < 2048

end

end Cert.Spmm

end
-- ==== Proof.IndexFacts.lean ====
/-
  Index words in range, read as numbers: a non-negative word is not wrapped, a gather's clamp leaves a word in range
  alone, and the flattened position col · 1024 + row of an in-range pair is that number (no overflow in 32 bits),
  from which the pair is recovered.
-/
import proofs.«412100_j59004260712486_3_alg».proof.Proof.Spec

noncomputable section

namespace Cert.Spmm

open Idealize.ShloMosaic

/-- The two readings of a 32-bit word: below 2³¹ they agree, from 2³¹ on the signed one is 2³² less. -/
private theorem toInt_cases (w : BitVec 32) :
    (w.toNat < 2147483648 ∧ w.toInt = (w.toNat : Int)) ∨
      (2147483648 ≤ w.toNat ∧ w.toInt = (w.toNat : Int) - 4294967296) := by
  have hlt : w.toNat < 4294967296 := w.isLt
  have key := BitVec.toInt_eq_toNat_cond w
  have e : (2 : Nat) ^ 32 = 4294967296 := by norm_num
  rw [e] at key
  split_ifs at key with hc
  · left; exact ⟨by omega, key⟩
  · right; refine ⟨by omega, ?_⟩; rw [key]; norm_num

/-- A word whose signed reading is non-negative is below 2³¹, and its two readings agree. -/
private theorem nonneg_word (w : BitVec 32) (h : 0 ≤ w.toInt) :
    w.toNat < 2147483648 ∧ w.toInt = (w.toNat : Int) := by
  rcases toInt_cases w with h' | h'
  · exact h'
  · omega

/-- A word below 2³¹ reads the same signed and unsigned. -/
private theorem toInt_of_small (w : BitVec 32) (h : w.toNat < 2147483648) : w.toInt = (w.toNat : Int) := by
  rcases toInt_cases w with h' | h'
  · exact h'.2
  · omega

/-- A non-negative index is not wrapped. -/
theorem wrapIdx_of_nonneg (n w : BitVec 32) (h : 0 ≤ w.toInt) : wrapIdx n w = w := by
  have h0 : (0#32 : BitVec 32).toInt = 0 := by decide
  -- the signed comparison w < 0 fails, so the select takes its second branch
  have hs : w.slt 0#32 = false := by
    simp only [BitVec.slt, h0, decide_eq_false_iff_not, not_lt]; exact h
  unfold wrapIdx Scalar.select IntOp.cmpi
  simp only [hs]
  rw [if_neg (by decide)]

/-- A word in `[0, n)` is its own clamp into `[0, n − 1]`. -/
theorem clampIdx_val (n : Nat) (hn : 0 < n) (w : BitVec 32) (h0 : 0 ≤ w.toInt) (h1 : w.toInt < (n : Int)) :
    ((clampIdx n hn w).val : Int) = w.toInt := by
  show ((min w.toInt.toNat (n - 1) : Nat) : Int) = w.toInt
  -- w, read signed, is a natural number at most n − 1, so the minimum is that number
  have hle : w.toInt.toNat ≤ n - 1 := by omega
  rw [min_eq_left hle]
  exact Int.toNat_of_nonneg h0

/-- The flattened position of an in-range (col, row) pair, read signed, is `col · 1024 + row`: the product and the
    sum stay below 2²¹, so neither wraps, and the result is non-negative, so jnp's wrap leaves it. -/
theorem flatIdx_toInt (tot col row : BitVec 32) (hc : 0 ≤ col.toInt ∧ col.toInt < 2048)
    (hr : 0 ≤ row.toInt ∧ row.toInt < 1024) :
    (flatIdx 1024#32 tot col row).toInt = col.toInt * 1024 + row.toInt := by
  obtain ⟨hc0, hc1⟩ := hc
  obtain ⟨hr0, hr1⟩ := hr
  obtain ⟨_, hce⟩ := nonneg_word col hc0
  obtain ⟨_, hre⟩ := nonneg_word row hr0
  have hcn : col.toNat < 2048 := by omega
  have hrn : row.toNat < 1024 := by omega
  have e32 : (2 : Nat) ^ 32 = 4294967296 := by norm_num
  have hM : (1024#32 : BitVec 32).toNat = 1024 := by decide
  -- the product is below 2²¹ and the sum below 2²¹ + 2¹⁰: neither wraps
  have hmul : (col * 1024#32).toNat = col.toNat * 1024 := by
    rw [BitVec.toNat_mul, hM, e32]; exact Nat.mod_eq_of_lt (by omega)
  have hadd : (col * 1024#32 + row).toNat = col.toNat * 1024 + row.toNat := by
    rw [BitVec.toNat_add, hmul, e32]; exact Nat.mod_eq_of_lt (by omega)
  -- so the sum, read signed, is that natural number
  have hs : (col * 1024#32 + row).toInt = ((col.toNat * 1024 + row.toNat : Nat) : Int) := by
    rw [toInt_of_small _ (by rw [hadd]; omega), hadd]
  -- which is non-negative: the wrap leaves it
  have hnn : 0 ≤ (col * 1024#32 + row).toInt := by rw [hs]; exact Int.natCast_nonneg _
  unfold flatIdx IntOp.addi IntOp.muli
  rw [wrapIdx_of_nonneg _ _ hnn, hs, hce, hre]
  push_cast
  ring

end Cert.Spmm

end
-- ==== Proof.Algebra.lean ====
/-
  The two results are one function of the arguments.  With every index in range the flattened position
  col · 1024 + row  determines the pair (col, row), so a dense weight's entry (c, r) is the sum of the values whose
  column is c and whose row is r; and over the real numbers a sum over the nonzeros of a row,
  Σ_i [row i = r] · v i · X (col i), is  Σ_c X c · (Σ_i [col i = c, row i = r] · v i): each nonzero is counted in
  the one column it names.  Distributing X c over the inner sum is where the entries must be real.
-/
import proofs.«412100_j59004260712486_3_alg».proof.Proof.Spec
import proofs.«412100_j59004260712486_3_alg».proof.Proof.IndexFacts

noncomputable section

namespace Cert.Spmm

open Idealize.ShloMosaic Idealize.ShloMosaic.ValueIdx Finset

/-! ### Exchanging a sum over nonzeros with a sum over columns -/

section exchange
variable {ι κ : Type} [Fintype ι] [Fintype κ] [DecidableEq κ]

/-- Over the reals: each nonzero `i` with property `P` is counted once, in the column `key i` it names. -/
theorem sum_mul_fiber_real (key : ι → κ) (P : ι → Prop) [DecidablePred P] (X : κ → ℝ) (v : ι → ℝ) :
    ∑ c : κ, X c * ∑ i ∈ univ.filter (fun i => key i = c ∧ P i), v i
      = ∑ i ∈ univ.filter P, v i * X (key i) := by
  rw [← Finset.sum_fiberwise (univ.filter P) key (fun i => v i * X (key i))]
  refine Finset.sum_congr rfl fun c _ => ?_
  rw [Finset.filter_filter, Finset.mul_sum]
  refine Finset.sum_congr ?_ ?_
  · ext i; simp only [Finset.mem_filter, Finset.mem_univ, true_and, and_comm]
  · intro i hi
    rw [Finset.mem_filter] at hi
    rw [hi.2.2, mul_comm]

/-- The inclusion of the reals in the extended reals commutes with finite sums. -/
theorem coe_sum {α : Type} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exchange over the extended reals, for real entries. -/
theorem sum_mul_fiber (key : ι → κ) (P : ι → Prop) [DecidablePred P] (X : κ → EReal) (v : ι → EReal)
    (hX : ∀ c, ∃ t : ℝ, X c = (t : EReal)) (hv : ∀ i, ∃ t : ℝ, v i = (t : EReal)) :
    ∑ c : κ, X c * ∑ i ∈ univ.filter (fun i => key i = c ∧ P i), v i
      = ∑ i ∈ univ.filter P, v i * X (key i) := by
  choose Xr hXr using hX
  choose vr hvr using hv
  simp only [hXr, hvr, ← coe_sum, ← EReal.coe_mul]
  exact congrArg _ (sum_mul_fiber_real key P Xr vr)

/-- A finite sum of products of real entries is real. -/
theorem real_sum_mul {α : Type} (s : Finset α) (f g : α → EReal) (hf : ∀ i, ∃ t : ℝ, f i = (t : EReal))
    (hg : ∀ i, ∃ t : ℝ, g i = (t : EReal)) : ∃ t : ℝ, ∑ i ∈ s, f i * g i = (t : EReal) := by
  choose fr hfr using hf
  choose gr hgr using hg
  exact ⟨∑ i ∈ s, fr i * gr i, by simp only [hfr, hgr, ← EReal.coe_mul, ← coe_sum]⟩

/-- The maximum of a real entry with zero is real. -/
theorem real_max_zero {a : EReal} (h : ∃ t : ℝ, a = (t : EReal)) : ∃ t : ℝ, max a 0 = (t : EReal) := by
  obtain ⟨t, rfl⟩ := h
  exact ⟨max t 0, by rw [← EReal.coe_zero]; exact (EReal.coe_strictMono.monotone.map_max).symm⟩

end exchange

/-! ### The dense weights, entry by entry, on admissible arguments -/

variable (x : Fin 2048 → Fin 1024 → EReal)
  (er ec : Fin 65536 → BitVec 32) (ev : Fin 65536 → EReal)
  (wr wc : Fin 131072 → BitVec 32) (wv : Fin 131072 → EReal)
  (bi : Fin 512 → BitVec 32) (bv : Fin 512 → EReal)

/-- The column of x a nonzero of the embed weight reads. -/
abbrev colE (i : Fin 65536) : Fin 1024 := clampIdx 1024 (by decide) (wrapIdx 1024#32 (ec i))
/-- The column of [x | h] a nonzero of the main weight reads. -/
abbrev colM (i : Fin 131072) : Fin 2048 := clampIdx 2048 (by decide) (wrapIdx 2048#32 (wc i))

theorem colE_val (hec : ∀ i, 0 ≤ (ec i).toInt ∧ (ec i).toInt < 1024) (i : Fin 65536) :
    ((colE ec i).val : Int) = (ec i).toInt := by
  unfold colE
  rw [wrapIdx_of_nonneg _ _ (hec i).1]
  exact clampIdx_val 1024 _ _ (hec i).1 (by exact_mod_cast (hec i).2)

theorem colM_val (hwc : ∀ i, 0 ≤ (wc i).toInt ∧ (wc i).toInt < 2048) (i : Fin 131072) :
    ((colM wc i).val : Int) = (wc i).toInt := by
  unfold colM
  rw [wrapIdx_of_nonneg _ _ (hwc i).1]
  exact clampIdx_val 2048 _ _ (hwc i).1 (by exact_mod_cast (hwc i).2)

/-- Entry (j, k) of the dense embed weight is the sum of the values in column j and row k: the flattened position
    col · 1024 + row with 0 ≤ row < 1024 determines both. -/
theorem denseE_eq (her : ∀ i, 0 ≤ (er i).toInt ∧ (er i).toInt < 1024)
    (hec : ∀ i, 0 ≤ (ec i).toInt ∧ (ec i).toInt < 1024) (j k : Fin 1024) :
    denseE er ec ev j k = ∑ i ∈ univ.filter (fun i => colE ec i = j ∧ (er i).toInt = (k.val : Int)), ev i := by
  unfold denseE fiberSum
  refine Finset.sum_congr (Finset.filter_congr fun i _ => ?_) fun _ _ => rfl
  rw [flatIdx_toInt _ _ _ ⟨(hec i).1, by have := (hec i).2; omega⟩ (her i)]
  have hc := colE_val ec hec i
  have h1 := her i
  have h2 := hec i
  have hj := j.isLt
  have hk := k.isLt
  constructor
  · intro e
    push_cast at e
    exact ⟨Fin.ext (by omega), by omega⟩
  · rintro ⟨e1, e2⟩
    have e3 : (colE ec i).val = j.val := congrArg Fin.val e1
    push_cast
    omega

/-- Entry (j, k) of the dense main weight likewise. -/
theorem denseM_eq (hwr : ∀ i, 0 ≤ (wr i).toInt ∧ (wr i).toInt < 1024)
    (hwc : ∀ i, 0 ≤ (wc i).toInt ∧ (wc i).toInt < 2048) (j : Fin 2048) (k : Fin 1024) :
    denseM wr wc wv j k = ∑ i ∈ univ.filter (fun i => colM wc i = j ∧ (wr i).toInt = (k.val : Int)), wv i := by
  unfold denseM fiberSum
  refine Finset.sum_congr (Finset.filter_congr fun i _ => ?_) fun _ _ => rfl
  rw [flatIdx_toInt _ _ _ (hwc i) (hwr i)]
  have hc := colM_val wc hwc i
  have h1 := hwr i
  have h2 := hwc i
  have hj := j.isLt
  have hk := k.isLt
  constructor
  · intro e
    push_cast at e
    exact ⟨Fin.ext (by omega), by omega⟩
  · rintro ⟨e1, e2⟩
    have e3 : (colM wc i).val = j.val := congrArg Fin.val e1
    push_cast
    omega

/-! ### The hidden activations and the result -/

/-- The kernel's and the reference's hidden activations agree. -/
theorem hidK_eq_hidR (h : Admissible x er ec ev wr wc wv) (b : Fin 2048) (k : Fin 1024) :
    hidK x er ec ev b k = hidR x er ec ev b k := by
  unfold hidK hidR
  refine congrArg (fun t => max t 0) ?_
  rw [Finset.sum_congr rfl fun j _ => by rw [denseE_eq er ec ev h.her h.hec j k]]
  exact sum_mul_fiber (colE ec) (fun i => (er i).toInt = (k.val : Int)) (x b) ev (h.hx b) h.hev

/-- The reference's hidden activations are real. -/
theorem hidR_real (h : Admissible x er ec ev wr wc wv) (b : Fin 2048) (k : Fin 1024) :
    ∃ t : ℝ, hidR x er ec ev b k = (t : EReal) :=
  real_max_zero (real_sum_mul _ _ _ (fun i => h.hev i) (fun i => h.hx b _))

/-- The joined features are real. -/
theorem joinR_real (h : Admissible x er ec ev wr wc wv) (b : Fin 2048) (c : Fin 2048) :
    ∃ t : ℝ, joinR x er ec ev b c = (t : EReal) := by
  unfold joinR
  split
  · exact h.hx b _
  · exact hidR_real x er ec ev wr wc wv h b _

/-- THE BRIDGE: on admissible arguments the kernel's dense-product form and the reference's gather-and-add form of
    the result agree at every entry. -/
theorem outK_eq_outR (h : Admissible x er ec ev wr wc wv) (b : Fin 2048) (r : Fin 1024) :
    outK x er ec ev wr wc wv bi bv b r = outR x er ec ev wr wc wv bi bv b r := by
  unfold outK outR
  refine congrArg (fun t => t + bias bi bv r) ?_
  -- the two half sums are the sum over the 2048 joined features
  have hsplit : (∑ k : Fin 1024, x b k * denseM wr wc wv ⟨k.val, by omega⟩ r
      + ∑ k : Fin 1024, hidK x er ec ev b k * denseM wr wc wv ⟨k.val + 1024, by omega⟩ r)
      = ∑ c : Fin (1024 + 1024), joinR x er ec ev b c * denseM wr wc wv c r := by
    rw [Fin.sum_univ_add]
    refine congrArg₂ (fun s t : EReal => s + t) ?_ ?_
    · refine Finset.sum_congr rfl fun k _ => ?_
      have hk : (Fin.castAdd 1024 k : Fin (1024 + 1024)).val < 1024 := k.isLt
      unfold joinR
      rw [dif_pos hk]
      rfl
    · refine Finset.sum_congr rfl fun k _ => ?_
      have hk : ¬ (Fin.natAdd 1024 k : Fin (1024 + 1024)).val < 1024 := by
        show ¬ (1024 + k.val < 1024); omega
      unfold joinR
      rw [dif_neg hk, hidK_eq_hidR x er ec ev wr wc wv h b k]
      exact congrArg₂ (fun (p : Fin 1024) (q : Fin 2048) => hidR x er ec ev b p * denseM wr wc wv q r)
        (Fin.ext (by show k.val = 1024 + k.val - 1024; omega))
        (Fin.ext (by show k.val + 1024 = 1024 + k.val; omega))
  rw [hsplit]
  rw [Finset.sum_congr rfl fun c _ => by rw [denseM_eq wr wc wv h.hwr h.hwc c r]]
  exact sum_mul_fiber (colM wc) (fun i => (wr i).toInt = (r.val : Int)) (joinR x er ec ev b) wv
    (joinR_real x er ec ev wr wc wv h b) h.hwv

end Cert.Spmm

end
-- ==== Proof.PreDecode.lean ====
/-
  The precondition read entry by entry: every float argument's entries are real numbers (|v| < +∞ rules out both
  infinities), and every row / column index lies in the range of the weight it indexes.
-/
import proofs.«412100_j59004260712486_3_alg».proof.Pre_finite_inputs
import proofs.«412100_j59004260712486_3_alg».proof.Proof.Spec
import Idealize.ShloMosaic.Lib.ReduceAll
import Idealize.ShloMosaic.Lib.StableHlo.Predicate

noncomputable section

namespace Cert.Spmm

open Idealize.ShloMosaic Idealize.ShloMosaic.ValueIdx
open Cert.Pre_finite_inputs

variable [Cert.Pre_finite_inputs.Facts]

private instance subsingleton_scalar_idx : Subsingleton S_.Idx := ⟨fun a b => funext fun d => d.elim0⟩

/-- The bit pattern 0x7F800000 denotes +∞. -/
private theorem ofBits_inf : Ideal.ofBits .f32 0x7F800000#32 = (⊤ : EReal) := by
  simp [Ideal.ofBits, Ideal.ieee]

/-- An extended real whose absolute value max v (-v) is below +∞ is a real number. -/
private theorem real_of_abs_lt_top (v : EReal) (h : max v (-v) < ⊤) : ∃ t : ℝ, v = (t : EReal) := by
  induction v using EReal.rec with
  | bot => simp at h
  | top => simp at h
  | coe r => exact ⟨r, rfl⟩

/-- A conjunction of scalar masks that is 1 has both conjuncts 1. -/
private theorem and_one {x y : IVec S_ 1} {j : S_.Idx} (h : andi x y j = 1#1) : x j = 1#1 ∧ y j = 1#1 :=
  IntOp.andi_eq_one.1 h

/-- The float mask |x| < +∞ at one entry: the entry is a real number. -/
private theorem float_mask {s : Shape} (hb : S_.BroadcastsInDim s (![] : Fin 0 → Fin s.rank)) (x : FVec Ideal s .f32)
    (i : s.Idx)
    (h : cmpf .olt (Host.absf x) (broadcastInDim s ![] hb (constant S_ .f32 0x7F800000#32)) i = 1#1) :
    ∃ t : ℝ, x i = (t : EReal) := by
  change Ideal.cmp .olt (max (x i) (-(x i))) (Ideal.ofBits .f32 0x7F800000#32) = 1#1 at h
  rw [ofBits_inf] at h
  simp only [Ideal.cmp, StableHlo.Predicate.ofBool_eq_one_iff, decide_eq_true_eq] at h
  exact real_of_abs_lt_top _ h

/-- The integer mask 0 ≤ a < n at one entry, read signed. -/
private theorem int_mask {s : Shape} (hb : S_.BroadcastsInDim s (![] : Fin 0 → Fin s.rank)) (a : IVec s 32)
    (n : BitVec 32) (i : s.Idx)
    (h : andi (cmpi .sge a (broadcastInDim s ![] hb (constantI S_ 32 0#32)))
          (cmpi .slt a (broadcastInDim s ![] hb (constantI S_ 32 n))) i = 1#1) :
    0 ≤ (a i).toInt ∧ (a i).toInt < n.toInt := by
  change IntOp.andi (IntOp.cmpi .sge (a i) 0#32) (IntOp.cmpi .slt (a i) n) = 1#1 at h
  obtain ⟨h1, h2⟩ := IntOp.andi_eq_one.1 h
  simp only [IntOp.cmpi, BitVec.sle, BitVec.slt, StableHlo.Predicate.ofBool_eq_one_iff, decide_eq_true_eq] at h1 h2
  have h0 : (0#32 : BitVec 32).toInt = 0 := by decide
  rw [h0] at h1
  exact ⟨h1, h2⟩

/-- The precondition, all ones, makes the arguments admissible. -/
theorem admissible_of_pre (x0 : FVec Ideal S2048x1024 .f32) (x1 x2 : IVec S65536 32) (x3 : FVec Ideal S65536 .f32)
    (x4 x5 : IVec S131072 32) (x6 : FVec Ideal S131072 .f32) (x7 : IVec S512 32) (x8 : FVec Ideal S512 .f32)
    (h : Cert.Pre_finite_inputs.fn (F := Ideal) x0 x1 x2 x3 x4 x5 x6 x7 x8 = (fun _ => 1#1)) :
    Admissible (fun b k => x0 (ix2 b k)) (fun i => x1 (ix1 i)) (fun i => x2 (ix1 i)) (fun i => x3 (ix1 i))
      (fun i => x4 (ix1 i)) (fun i => x5 (ix1 i)) (fun i => x6 (ix1 i)) := by
  have e := congrFun h ValueIdx.ix0
  dsimp only [fn, fn_part1, fn_part2] at e
  obtain ⟨e, h5⟩ := and_one e
  obtain ⟨e, h4⟩ := and_one e
  obtain ⟨e, h2⟩ := and_one e
  obtain ⟨e, h1⟩ := and_one e
  obtain ⟨e, _h8⟩ := and_one e
  obtain ⟨e, h6⟩ := and_one e
  obtain ⟨h0, h3⟩ := and_one e
  have k1024 : (1024#32 : BitVec 32).toInt = 1024 := by decide
  have k2048 : (2048#32 : BitVec 32).toInt = 2048 := by decide
  refine ⟨?_, ?_, ?_, ?_, ?_, ?_, ?_⟩
  · intro b k
    exact float_mask _ x0 (ix2 b k) (Host.reduce_andi_all _ _ _ _ _ h0 _)
  · intro i
    exact float_mask _ x3 (ix1 i) (Host.reduce_andi_all _ _ _ _ _ h3 _)
  · intro i
    exact float_mask _ x6 (ix1 i) (Host.reduce_andi_all _ _ _ _ _ h6 _)
  · intro i
    have := int_mask _ x1 1024#32 (ix1 i) (Host.reduce_andi_all _ _ _ _ _ h1 _)
    rw [k1024] at this; exact this
  · intro i
    have := int_mask _ x2 1024#32 (ix1 i) (Host.reduce_andi_all _ _ _ _ _ h2 _)
    rw [k1024] at this; exact this
  · intro i
    have := int_mask _ x4 1024#32 (ix1 i) (Host.reduce_andi_all _ _ _ _ _ h4 _)
    rw [k1024] at this; exact this
  · intro i
    have := int_mask _ x5 2048#32 (ix1 i) (Host.reduce_andi_all _ _ _ _ _ h5 _)
    rw [k2048] at this; exact this

end Cert.Spmm

end
-- ==== Proof.LibScatter.lean ====
/-
  The host's accumulating scatter read at an index, for the two layouts a sparse product uses: scalars added into
  a vector at the positions an index column names, and rows added into a matrix at the rows an index column names.
-/
import Idealize.ShloMosaic.PureOps
import Idealize.ShloMosaic.Lib.ValueIdx

noncomputable section

namespace Idealize.ShloMosaic.ScatterRead

open Idealize.ShloMosaic Idealize.ShloMosaic.ValueIdx

/-! ## When an update lands at a given entry -/

/-- An update lands at `i` exactly when, on every operand axis, its start plus its window coordinate is `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hh
      have h2 := congrArg Fin.val (congrFun (Option.some.inj h) a)
      simp only at h2
      have := (hh a).1
      omega
    · exact absurd h (by simp)
  · intro h
    have hh : ∀ a, 0 ≤ d.start j idx a + d.window j a ∧ d.start j idx a + d.window j a < s.size a := by
      intro a; rw [h a]; exact ⟨by omega, by exact_mod_cast (i a).isLt⟩
    rw [dif_pos hh]
    congr 1
    funext a
    apply Fin.ext
    simp [h a]

/-! ## Scalars into a vector: start and window of an update -/

private theorem flat_start {N n w : Nat} (wf : ScatterDims.WF ⟨1, ![N]⟩ ⟨2, ![n, 1]⟩ ⟨1, ![n]⟩ [] [0] [0] 1)
    (idx : IVec ⟨2, ![n, 1]⟩ w) (j : (⟨1, ![n]⟩ : Shape).Idx) :
    (⟨[], [0], [0], 1, wf⟩ : ScatterDims ⟨1, ![N]⟩ ⟨2, ![n, 1]⟩ ⟨1, ![n]⟩).start j idx 0 = (idx (ix2 (j 0) 0)).toInt := by
  unfold ScatterDims.start
  rw [dif_pos (List.mem_singleton.mpr rfl)]
  congr 2
  funext b; refine Fin.ext ?_
  match b with
  | ⟨0, _⟩ => rfl
  | ⟨1, _⟩ => rfl

private theorem flat_window {N n : Nat} (wf : ScatterDims.WF ⟨1, ![N]⟩ ⟨2, ![n, 1]⟩ ⟨1, ![n]⟩ [] [0] [0] 1)
    (j : (⟨1, ![n]⟩ : Shape).Idx) :
    (⟨[], [0], [0], 1, wf⟩ : ScatterDims ⟨1, ![N]⟩ ⟨2, ![n, 1]⟩ ⟨1, ![n]⟩).window j 0 = 0 := by
  unfold ScatterDims.window
  rw [dif_neg]
  exact fun h => (of_decide_eq_true (List.mem_filter.mp h).2) (List.mem_singleton.mpr rfl)

/-- Flat layout: an update lands at `k` exactly when its index word, read signed, is `k`. -/
private theorem flat_resultIdx? {N n w : Nat} (wf : ScatterDims.WF ⟨1, ![N]⟩ ⟨2, ![n, 1]⟩ ⟨1, ![n]⟩ [] [0] [0] 1)
    (idx : IVec ⟨2, ![n, 1]⟩ w) (j : (⟨1, ![n]⟩ : Shape).Idx) (k : Fin N) :
    (⟨[], [0], [0], 1, wf⟩ : ScatterDims ⟨1, ![N]⟩ ⟨2, ![n, 1]⟩ ⟨1, ![n]⟩).resultIdx? j idx = some (ix1 k)
      ↔ (idx (ix2 (j 0) 0)).toInt = (k.val : Int) := by
  rw [resultIdx?_eq_some_iff]
  constructor
  · intro h
    have h0 := h 0
    rw [flat_start, flat_window, Nat.cast_zero, add_zero] at h0
    exact h0
  · intro h a
    obtain rfl : a = 0 := Subsingleton.elim _ _
    rw [flat_start, flat_window, h, Nat.cast_zero, add_zero]
    rfl

/-- SCALARS INTO A VECTOR. Entry `k` of the result is the operand's entry plus the sum of the updates `upd[i]`
    whose index word `idx[i, 0]`, read signed, is `k`; an update whose index is outside `[0, N)` lands nowhere. -/
theorem scatterAdd_flat_apply {N n w : Nat} (d : ScatterDims (⟨1, ![N]⟩ : Shape) ⟨2, ![n, 1]⟩ ⟨1, ![n]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![n, 1]⟩ w) (upd : (⟨1, ![n]⟩ : Shape).Idx → EReal) (k : Fin N) :
    Ideal.hostScatterAdd d x idx upd (ix1 k)
      = x (ix1 k) + ∑ i ∈ Finset.univ.filter (fun i : Fin n => (idx (ix2 i 0)).toInt = (k.val : Int)), upd (ix1 i) := by
  obtain ⟨uw, iw, sd, iv, wf⟩ := d
  dsimp only at hu hi hs hv
  subst hu hi hs hv
  unfold Ideal.hostScatterAdd
  congr 1
  refine Finset.sum_nbij' (fun j : (⟨1, ![n]⟩ : Shape).Idx => (j 0 : Fin n)) (fun i : Fin n => ix1 i) ?_ ?_ ?_ ?_ ?_
  · intro j hj
    exact Finset.mem_filter.mpr ⟨Finset.mem_univ _, (flat_resultIdx? wf idx j k).mp (Finset.mem_filter.mp hj).2⟩
  · intro i hi
    exact Finset.mem_filter.mpr ⟨Finset.mem_univ _, (flat_resultIdx? wf idx (ix1 i) k).mpr (Finset.mem_filter.mp hi).2⟩
  · intro j _
    exact (eq_ix1 j).symm
  · intro i _
    rfl
  · intro j _
    exact congrArg upd (eq_ix1 j)

/-! ## Rows into a matrix: start and window of an update -/

private theorem rows_start0 {R C n w : Nat} (wf : ScatterDims.WF ⟨2, ![R, C]⟩ ⟨2, ![n, 1]⟩ ⟨2, ![n, C]⟩ [1] [0] [0] 1)
    (idx : IVec ⟨2, ![n, 1]⟩ w) (j : (⟨2, ![n, C]⟩ : Shape).Idx) :
    (⟨[1], [0], [0], 1, wf⟩ : ScatterDims ⟨2, ![R, C]⟩ ⟨2, ![n, 1]⟩ ⟨2, ![n, C]⟩).start j idx 0
      = (idx (ix2 (j 0) 0)).toInt := by
  unfold ScatterDims.start
  rw [dif_pos (List.mem_singleton.mpr rfl)]
  congr 2
  funext b; refine Fin.ext ?_
  match b with
  | ⟨0, _⟩ => rfl
  | ⟨1, _⟩ => rfl

private theorem rows_start1 {R C n w : Nat} (wf : ScatterDims.WF ⟨2, ![R, C]⟩ ⟨2, ![n, 1]⟩ ⟨2, ![n, C]⟩ [1] [0] [0] 1)
    (idx : IVec ⟨2, ![n, 1]⟩ w) (j : (⟨2, ![n, C]⟩ : Shape).Idx) :
    (⟨[1], [0], [0], 1, wf⟩ : ScatterDims ⟨2, ![R, C]⟩ ⟨2, ![n, 1]⟩ ⟨2, ![n, C]⟩).start j idx 1 = 0 := by
  unfold ScatterDims.start
  rw [dif_neg]
  exact fun h => Nat.one_ne_zero (congrArg Fin.val (List.mem_singleton.mp h))

private theorem rows_window0 {R C n : Nat} (wf : ScatterDims.WF ⟨2, ![R, C]⟩ ⟨2, ![n, 1]⟩ ⟨2, ![n, C]⟩ [1] [0] [0] 1)
    (j : (⟨2, ![n, C]⟩ : Shape).Idx) :
    (⟨[1], [0], [0], 1, wf⟩ : ScatterDims ⟨2, ![R, C]⟩ ⟨2, ![n, 1]⟩ ⟨2, ![n, C]⟩).window j 0 = 0 := by
  unfold ScatterDims.window
  rw [dif_neg]
  exact fun h => (of_decide_eq_true (List.mem_filter.mp h).2) (List.mem_singleton.mpr rfl)

private theorem rows_window1 {R C n : Nat} (wf : ScatterDims.WF ⟨2, ![R, C]⟩ ⟨2, ![n, 1]⟩ ⟨2, ![n, C]⟩ [1] [0] [0] 1)
    (j : (⟨2, ![n, C]⟩ : Shape).Idx) :
    (⟨[1], [0], [0], 1, wf⟩ : ScatterDims ⟨2, ![R, C]⟩ ⟨2, ![n, 1]⟩ ⟨2, ![n, C]⟩).window j 1 = (j 1).val := by
  have h1 : (1 : Fin 2) ∈ (⟨[1], [0], [0], 1, wf⟩ : ScatterDims ⟨2, ![R, C]⟩ ⟨2, ![n, 1]⟩ ⟨2, ![n, C]⟩).sKept :=
    List.mem_filter.mpr ⟨List.mem_finRange _,
      decide_eq_true (fun h => Nat.one_ne_zero (congrArg Fin.val (List.mem_singleton.mp h)))⟩
  unfold ScatterDims.window
  rw [dif_pos h1]
  rfl

/-- Row layout: an update lands at `(r, b)` exactly when its index word, read signed, is `r` and its column is `b`. -/
private theorem rows_resultIdx? {R C n w : Nat} (wf : ScatterDims.WF ⟨2, ![R, C]⟩ ⟨2, ![n, 1]⟩ ⟨2, ![n, C]⟩ [1] [0] [0] 1)
    (idx : IVec ⟨2, ![n, 1]⟩ w) (j : (⟨2, ![n, C]⟩ : Shape).Idx) (r : Fin R) (b : Fin C) :
    (⟨[1], [0], [0], 1, wf⟩ : ScatterDims ⟨2, ![R, C]⟩ ⟨2, ![n, 1]⟩ ⟨2, ![n, C]⟩).resultIdx? j idx = some (ix2 r b)
      ↔ (idx (ix2 (j 0) 0)).toInt = (r.val : Int) ∧ (j 1).val = b.val := by
  rw [resultIdx?_eq_some_iff]
  constructor
  · intro h
    have h0 := h 0
    have h1 := h 1
    rw [rows_start0, rows_window0, Nat.cast_zero, add_zero] at h0
    rw [rows_start1, rows_window1, zero_add] at h1
    exact ⟨h0, by exact_mod_cast h1⟩
  · intro h a
    match a with
    | ⟨0, _⟩ =>
      show ScatterDims.start _ j idx 0 + ((ScatterDims.window _ j 0 : Nat) : Int) = _
      rw [rows_start0, rows_window0, h.1, Nat.cast_zero, add_zero]
    | ⟨1, _⟩ =>
      show ScatterDims.start _ j idx 1 + ((ScatterDims.window _ j 1 : Nat) : Int) = _
      rw [rows_start1, rows_window1, h.2, zero_add]

/-- ROWS INTO A MATRIX. Entry `(r, b)` of the result is the operand's entry plus the sum of the updates
    `upd[i, b]` over the rows `i` whose index word `idx[i, 0]`, read signed, is `r`. -/
theorem scatterAdd_rows_apply {R C n w : Nat} (d : ScatterDims (⟨2, ![R, C]⟩ : Shape) ⟨2, ![n, 1]⟩ ⟨2, ![n, C]⟩)
    (hu : d.updateWindowDims = [1]) (hi : d.insertedWindowDims = [0]) (hs : d.scatterDimsToOperandDims = [0])
    (hv : d.indexVectorDim = 1)
    (x : (⟨2, ![R, C]⟩ : Shape).Idx → EReal) (idx : IVec ⟨2, ![n, 1]⟩ w) (upd : (⟨2, ![n, C]⟩ : Shape).Idx → EReal)
    (r : Fin R) (b : Fin C) :
    Ideal.hostScatterAdd d x idx upd (ix2 r b)
      = x (ix2 r b) + ∑ i ∈ Finset.univ.filter (fun i : Fin n => (idx (ix2 i 0)).toInt = (r.val : Int)), upd (ix2 i b) := by
  obtain ⟨uw, iw, sd, iv, wf⟩ := d
  dsimp only at hu hi hs hv
  subst hu hi hs hv
  unfold Ideal.hostScatterAdd
  congr 1
  refine Finset.sum_nbij' (fun j : (⟨2, ![n, C]⟩ : Shape).Idx => (j 0 : Fin n)) (fun i : Fin n => ix2 i b) ?_ ?_ ?_ ?_ ?_
  · intro j hj
    exact Finset.mem_filter.mpr ⟨Finset.mem_univ _, ((rows_resultIdx? wf idx j r b).mp (Finset.mem_filter.mp hj).2).1⟩
  · intro i hi
    exact Finset.mem_filter.mpr ⟨Finset.mem_univ _, (rows_resultIdx? wf idx (ix2 i b) r b).mpr ⟨(Finset.mem_filter.mp hi).2, rfl⟩⟩
  · intro j hj
    have hb : (j 1 : Fin C) = b := Fin.ext ((rows_resultIdx? wf idx j r b).mp (Finset.mem_filter.mp hj).2).2
    show ix2 (j 0 : Fin n) b = j
    rw [← hb]
    exact (eq_ix2 j).symm
  · intro i _
    rfl
  · intro j hj
    have hb : (j 1 : Fin C) = b := Fin.ext ((rows_resultIdx? wf idx j r b).mp (Finset.mem_filter.mp hj).2).2
    show upd j = upd (ix2 (j 0 : Fin n) b)
    rw [← hb]
    exact congrArg upd (eq_ix2 j)

end Idealize.ShloMosaic.ScatterRead

end
-- ==== Proof.LibGather.lean ====
/-
  Two layout reads a sparse product's reference needs: a gather of whole rows of a matrix by an index column, and
  two matrices joined along their second axis.
-/
import Idealize.ShloMosaic.PureOps
import Idealize.ShloMosaic.Lib.ValueIdx
import Idealize.ShloMosaic.Lib.Pipeline.Value

noncomputable section

namespace Idealize.ShloMosaic.GatherRead

open Idealize.ShloMosaic Idealize.ShloMosaic.ValueIdx

/-- The dimension numbers of a gather of whole rows: operand `[R, C]`, start indices `[n, 1]` (one row number per
    result row), result `[n, C]`; the row axis is collapsed and indexed, the column axis is kept whole. -/
private abbrev rowsDims (R C n : Nat)
    (wf : GatherDims.WF ⟨2, ![R, C]⟩ ⟨2, ![n, 1]⟩ ⟨2, ![n, C]⟩ [1] [0] [] [0] [] 1 ![1, C]) :
    GatherDims (⟨2, ![R, C]⟩ : Shape) ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Axis 1 is not axis 0. -/
private theorem one_not_mem_zero : (1 : Fin 2) ∉ ([0] : List (Fin 2)) := by decide

/-- The gather of whole rows read at `(i, b)`, for the dimension numbers spelled out. -/
private theorem rows_apply {α : Type} {R C n w : Nat} (hR : 0 < R)
    (wf : GatherDims.WF ⟨2, ![R, C]⟩ ⟨2, ![n, 1]⟩ ⟨2, ![n, C]⟩ [1] [0] [] [0] [] 1 ![1, C])
    (x : (⟨2, ![R, C]⟩ : Shape).Idx → α) (idx : IVec ⟨2, ![n, 1]⟩ w) (i : Fin n) (b : Fin C) :
    Host.gather (rowsDims R C n wf) x idx (ix2 i b)
      = x (ix2 ⟨min (idx (ix2 i 0)).toInt.toNat (R - 1), by omega⟩ b) := by
  unfold Host.gather
  congr 1
  funext a
  refine Fin.ext ?_
  match a with
  | ⟨0, _⟩ =>
    -- the row axis: the clamped start index; no batching coordinate, and no offset since the axis is collapsed
    show (rowsDims R C n wf).start (ix2 i b) idx 0 + (rowsDims R C n wf).batchCoord (ix2 i b) 0
      + (rowsDims R C n wf).offCoord (ix2 i b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims R C n wf).startIndexMap from List.mem_singleton.mpr rfl)]
    have hsi : (rowsDims R C n wf).siIdx (ix2 i b) ⟨List.idxOf (0 : Fin 2) (rowsDims R C n wf).startIndexMap,
        List.idxOf_lt_length_iff.2 (List.mem_singleton.mpr rfl)⟩ = ix2 i 0 := by
      funext c; refine Fin.ext ?_
      match c with
      | ⟨0, _⟩ => rfl
      | ⟨1, _⟩ => rfl
    rw [hsi]
    rfl
  | ⟨1, _⟩ =>
    -- the column axis: not indexed (start 0), not batching, and the offset is the result's column
    show (rowsDims R C n wf).start (ix2 i b) idx 1 + (rowsDims R C n wf).batchCoord (ix2 i b) 1
      + (rowsDims R C n wf).offCoord (ix2 i b) 1 = b.val
    rw [GatherDims.batchCoord_eq_zero _ _ _ List.not_mem_nil]
    have hs : (rowsDims R C n wf).start (ix2 i b) idx 1 = 0 := by
      unfold GatherDims.start
      rw [dif_neg (show ¬ (1 : Fin 2) ∈ (rowsDims R C n wf).startIndexMap from one_not_mem_zero)]
    have hk : (1 : Fin 2) ∈ (rowsDims R C n wf).sKept :=
      (GatherDims.mem_sKept _ _).mpr ⟨one_not_mem_zero, List.not_mem_nil⟩
    rw [hs]
    simp only [Nat.add_zero, Nat.zero_add]
    unfold GatherDims.offCoord
    rw [dif_pos hk]
    rfl

/-- ROWS OF A MATRIX. Entry `(i, b)` of the result is the operand at row `idx[i, 0]` — read signed and clamped
    into `[0, R − 1]` — and column `b`. -/
theorem gather_rows_apply {α : Type} {R C n w : Nat} (hR : 0 < R)
    (d : GatherDims (⟨2, ![R, C]⟩ : Shape) ⟨2, ![n, 1]⟩ ⟨2, ![n, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![R, C]⟩ : Shape).Idx → α) (idx : IVec ⟨2, ![n, 1]⟩ w) (i : Fin n) (b : Fin C) :
    Host.gather d x idx (ix2 i b) = x (ix2 ⟨min (idx (ix2 i 0)).toInt.toNat (R - 1), by omega⟩ b) := by
  obtain ⟨od, cd, ob, sb, sm, iv, ss, wf⟩ := d
  dsimp only at h1 h2 h3 h4 h5 h6 h7
  subst h1 h2 h3 h4 h5 h6 h7
  exact rows_apply hR wf x idx i b

/-- TWO MATRICES SIDE BY SIDE. Entry `(p, q)` of `[a | b]` is `a[p, q]` for `q` below `a`'s width and
    `b[p, q − width]` from there on. -/
theorem concat_cols_apply {α : Type} {A B₁ B₂ B : Nat} (hB : B₁ + B₂ = B)
    (h : Shape.Concatenates [(⟨2, ![A, B₁]⟩ : Shape), ⟨2, ![A, B₂]⟩] (⟨2, ![A, B]⟩ : Shape) 1)
    (a : (⟨2, ![A, B₁]⟩ : Shape).Idx → α) (b : (⟨2, ![A, B₂]⟩ : Shape).Idx → α) (p : Fin A) (q : Fin B) :
    concatenate (⟨2, ![A, B]⟩ : Shape) 1 [⟨⟨2, ![A, B₁]⟩, a⟩, ⟨⟨2, ![A, B₂]⟩, b⟩] h (ix2 p q)
      = if hq : q.val < B₁ then a (ix2 p ⟨q.val, hq⟩) else b (ix2 p ⟨q.val - B₁, by omega⟩) := by
  by_cases hq : q.val < B₁
  · -- the column falls in the first matrix: same coordinates there
    rw [dif_pos hq]
    refine concatenate_pair_apply_left (1 : Fin 2) a b h (ix2 p q) rfl (ix2 p ⟨q.val, hq⟩) ?_
    intro c
    match c with
    | ⟨0, _⟩ => rfl
    | ⟨1, _⟩ => rfl
  · -- the column falls in the second matrix: same row, the column the first width less
    rw [dif_neg hq]
    refine concatenate_pair_apply_right (1 : Fin 2) a b h (ix2 p q) rfl rfl (ix2 p ⟨q.val - B₁, by omega⟩) ?_ ?_
    · intro c hc
      match c, hc with
      | ⟨0, _⟩, _ => rfl
      | ⟨1, _⟩, hc => exact absurd rfl hc
    · show q.val - B₁ + B₁ = q.val
      omega

end Idealize.ShloMosaic.GatherRead

end
-- ==== Proof.RefRead.lean ====
/-
  The reference's result read at an entry: its run's term, one operation at a time, is `outR` of the arguments.
-/
import proofs.«412100_j59004260712486_3_alg».proof.Proof.Gen.ReferenceIdeal.Read
import proofs.«412100_j59004260712486_3_alg».proof.Proof.Spec
import proofs.«412100_j59004260712486_3_alg».proof.Proof.LibScatter
import proofs.«412100_j59004260712486_3_alg».proof.Proof.LibGather
import Idealize.ShloMosaic.PureOps.Ideal.Laws

noncomputable section

namespace Cert.ReferenceIdeal.RefValue

open Cert.ReferenceIdeal Cert.ReferenceIdeal.Gen Idealize.ShloMosaic Idealize.ShloMosaic.ValueIdx

open Cert.ReferenceIdeal.Read

/-! ### Index functions at an index given by its coordinates -/

private theorem idx7_eq (i : Fin 65536) (z : Fin 1) : idx_main_v7 (ix2 i z) = ix1 i := by
  funext a; match a with | ⟨0, _⟩ => rfl
private theorem idx12_eq (i : Fin 65536) (z : Fin 1) : idx_main_v12 (ix2 i z) = ix1 i := by
  funext a; match a with | ⟨0, _⟩ => rfl
private theorem idx0_eq (i : Fin 65536) (z : Fin 1) : idx_main_v0 (ix2 i z) = ix1 i := by
  funext a; match a with | ⟨0, _⟩ => rfl
private theorem idx9_eq (i : Fin 65536) (b : Fin 2048) : idx_main_v9 (ix2 i b) = ix2 i 0 := by
  funext a; match a with | ⟨0, _⟩ => rfl | ⟨1, _⟩ => rfl
private theorem idx1_eq (r : Fin 1024) (b : Fin 2048) : idx_main_v1 (ix2 r b) = ix2 b r := by
  funext a; match a with | ⟨0, _⟩ => rfl | ⟨1, _⟩ => rfl
private theorem idx14_eq (b : Fin 2048) (r : Fin 1024) : idx_main_v14 (ix2 b r) = ix2 r b := by
  funext a; match a with | ⟨0, _⟩ => rfl | ⟨1, _⟩ => rfl
private theorem idx26_eq (c b : Fin 2048) : idx_main_v26 (ix2 c b) = ix2 b c := by
  funext a; match a with | ⟨0, _⟩ => rfl | ⟨1, _⟩ => rfl
private theorem idx23_eq (i : Fin 512) (z : Fin 1) : idx_main_v23 (ix2 i z) = ix1 i := by
  funext a; match a with | ⟨0, _⟩ => rfl
private theorem idx25_eq (i : Fin 131072) (z : Fin 1) : idx_main_v25 (ix2 i z) = ix1 i := by
  funext a; match a with | ⟨0, _⟩ => rfl
private theorem idx32_eq (i : Fin 131072) (z : Fin 1) : idx_main_v32 (ix2 i z) = ix1 i := by
  funext a; match a with | ⟨0, _⟩ => rfl
private theorem idx37_eq (i : Fin 131072) (z : Fin 1) : idx_main_v37 (ix2 i z) = ix1 i := by
  funext a; match a with | ⟨0, _⟩ => rfl
private theorem idx34_eq (i : Fin 131072) (b : Fin 2048) : idx_main_v34 (ix2 i b) = ix2 i 0 := by
  funext a; match a with | ⟨0, _⟩ => rfl | ⟨1, _⟩ => rfl
private theorem idx39_eq (b : Fin 2048) (r : Fin 1024) : idx_main_v39 (ix2 b r) = ix2 r b := by
  funext a; match a with | ⟨0, _⟩ => rfl | ⟨1, _⟩ => rfl
private theorem idx41_eq (b : Fin 2048) (r : Fin 1024) : idx_main_v41 (ix2 b r) = ix2 0 r := by
  funext a; match a with | ⟨0, _⟩ => rfl | ⟨1, _⟩ => rfl
private theorem idx40_eq (z : Fin 1) (r : Fin 1024) : idx_main_v40 (ix2 z r) = ix1 r := by
  funext a; match a with | ⟨0, _⟩ => rfl

/-! ### The index columns -/

/-- The embed weight's column indices, wrapped, as the gather's index column. -/
private theorem v7_at (x2 : IVec S65536 32) (i : Fin 65536) (z : Fin 1) :
    val_main_v7 (F := Ideal) x2 (ix2 i z) = Cert.Spmm.wrapIdx 1024#32 (x2 (ix1 i)) := by
  rw [val_main_v7_apply, idx7_eq, val_main_v6_apply, val_main_v3_apply, val_main_v5_apply, val_main_v2_apply,
    val_main_v4_apply, val_main_c_apply, val_main_c_0_apply]
  rfl

/-- The embed weight's row indices as the scatter's index column. -/
private theorem v12_at (x1 : IVec S65536 32) (i : Fin 65536) (z : Fin 1) :
    val_main_v12 (F := Ideal) x1 (ix2 i z) = x1 (ix1 i) := by
  rw [val_main_v12_apply, idx12_eq]

/-- The bias's indices, wrapped, as the scatter's index column. -/
private theorem v23_at (x7 : IVec S512 32) (i : Fin 512) (z : Fin 1) :
    val_main_v23 (F := Ideal) x7 (ix2 i z) = Cert.Spmm.wrapIdx 1024#32 (x7 (ix1 i)) := by
  rw [val_main_v23_apply, idx23_eq, val_main_v22_apply, val_main_v19_apply, val_main_v21_apply, val_main_v18_apply,
    val_main_v20_apply, val_main_c_2_apply, val_main_c_3_apply]
  rfl

/-- The main weight's column indices, wrapped, as the gather's index column. -/
private theorem v32_at (x5 : IVec S131072 32) (i : Fin 131072) (z : Fin 1) :
    val_main_v32 (F := Ideal) x5 (ix2 i z) = Cert.Spmm.wrapIdx 2048#32 (x5 (ix1 i)) := by
  rw [val_main_v32_apply, idx32_eq, val_main_v31_apply, val_main_v28_apply, val_main_v30_apply, val_main_v27_apply,
    val_main_v29_apply, val_main_c_4_apply, val_main_c_5_apply]
  rfl

/-- The main weight's row indices as the scatter's index column. -/
private theorem v37_at (x4 : IVec S131072 32) (i : Fin 131072) (z : Fin 1) :
    val_main_v37 (F := Ideal) x4 (ix2 i z) = x4 (ix1 i) := by
  rw [val_main_v37_apply, idx37_eq]

/-! ### The embed stage -/

/-- The embed gather: row `i` of the gathered array is the column of `x` the wrapped, clamped column index names. -/
private theorem v8_at (x0 : FVec Ideal S2048x1024 .f32) (x2 : IVec S65536 32) (i : Fin 65536) (b : Fin 2048) :
    val_main_v8 (F := Ideal) x0 x2 (ix2 i b)
      = x0 (ix2 b (Cert.Spmm.clampIdx 1024 (by decide) (Cert.Spmm.wrapIdx 1024#32 (x2 (ix1 i))))) := by
  unfold val_main_v8
  rw [GatherRead.gather_rows_apply (by decide) _ rfl rfl rfl rfl rfl rfl rfl, val_main_v1_apply, idx1_eq]
  simp only [v7_at]
  rfl

/-- The scaled gathered rows. -/
private theorem v10_at (x0 : FVec Ideal S2048x1024 .f32) (x2 : IVec S65536 32) (x3 : FVec Ideal S65536 .f32)
    (i : Fin 65536) (b : Fin 2048) :
    val_main_v10 (F := Ideal) x0 x2 x3 (ix2 i b)
      = x3 (ix1 i) * x0 (ix2 b (Cert.Spmm.clampIdx 1024 (by decide) (Cert.Spmm.wrapIdx 1024#32 (x2 (ix1 i))))) := by
  rw [val_main_v10_apply, Ideal.mulf_def, val_main_v9_apply, idx9_eq, val_main_v0_apply, idx0_eq, v8_at]

/-- The embed scatter: entry (r, b) is the sum of the scaled columns whose row index is `r`. -/
private theorem v13_at (x0 : FVec Ideal S2048x1024 .f32) (x1 x2 : IVec S65536 32) (x3 : FVec Ideal S65536 .f32)
    (r : Fin 1024) (b : Fin 2048) :
    val_main_v13 (F := Ideal) x0 x1 x2 x3 (ix2 r b)
      = ∑ i ∈ Finset.univ.filter (fun i : Fin 65536 => (x1 (ix1 i)).toInt = (r.val : Int)),
          x3 (ix1 i) * x0 (ix2 b (Cert.Spmm.clampIdx 1024 (by decide) (Cert.Spmm.wrapIdx 1024#32 (x2 (ix1 i))))) := by
  unfold val_main_v13 Host.scatterAdd
  rw [Ideal.hostScatterAdd_def, ScatterRead.scatterAdd_rows_apply _ rfl rfl rfl rfl, val_main_v11_apply,
    val_main_cst_apply, Ideal.ofBits_def, Ideal.ofBits_zero_f32, zero_add]
  simp only [v12_at, v10_at]

/-- The hidden activations. -/
private theorem v15_at (x0 : FVec Ideal S2048x1024 .f32) (x1 x2 : IVec S65536 32) (x3 : FVec Ideal S65536 .f32)
    (b : Fin 2048) (r : Fin 1024) :
    val_main_v15 (F := Ideal) x0 x1 x2 x3 (ix2 b r)
      = Cert.Spmm.hidR (fun b k => x0 (ix2 b k)) (fun i => x1 (ix1 i)) (fun i => x2 (ix1 i)) (fun i => x3 (ix1 i)) b r := by
  rw [val_main_v15_apply, Ideal.maximumf_def, val_main_v14_apply, idx14_eq, v13_at, val_main_call0_v0_apply,
    val_main_call0_cst_apply, Ideal.ofBits_def, Ideal.ofBits_zero_f32]
  rfl

/-- The joined features. -/
private theorem v16_at (x0 : FVec Ideal S2048x1024 .f32) (x1 x2 : IVec S65536 32) (x3 : FVec Ideal S65536 .f32)
    (b c : Fin 2048) :
    val_main_v16 (F := Ideal) x0 x1 x2 x3 (ix2 b c)
      = Cert.Spmm.joinR (fun b k => x0 (ix2 b k)) (fun i => x1 (ix1 i)) (fun i => x2 (ix1 i)) (fun i => x3 (ix1 i)) b c := by
  unfold val_main_v16
  rw [GatherRead.concat_cols_apply (by decide)]
  unfold Cert.Spmm.joinR
  split
  · rfl
  · rw [v15_at]

/-! ### The main stage -/

/-- The main gather: row `i` is the column of the joined features the wrapped, clamped column index names. -/
private theorem v33_at (x0 : FVec Ideal S2048x1024 .f32) (x1 x2 : IVec S65536 32) (x3 : FVec Ideal S65536 .f32)
    (x5 : IVec S131072 32) (i : Fin 131072) (b : Fin 2048) :
    val_main_v33 (F := Ideal) x0 x1 x2 x3 x5 (ix2 i b)
      = Cert.Spmm.joinR (fun b k => x0 (ix2 b k)) (fun i => x1 (ix1 i)) (fun i => x2 (ix1 i)) (fun i => x3 (ix1 i)) b
          (Cert.Spmm.clampIdx 2048 (by decide) (Cert.Spmm.wrapIdx 2048#32 (x5 (ix1 i)))) := by
  unfold val_main_v33
  rw [GatherRead.gather_rows_apply (by decide) _ rfl rfl rfl rfl rfl rfl rfl, val_main_v26_apply, idx26_eq, v16_at]
  simp only [v32_at]
  rfl

/-- The scaled gathered rows. -/
private theorem v35_at (x0 : FVec Ideal S2048x1024 .f32) (x1 x2 : IVec S65536 32) (x3 : FVec Ideal S65536 .f32)
    (x5 : IVec S131072 32) (x6 : FVec Ideal S131072 .f32) (i : Fin 131072) (b : Fin 2048) :
    val_main_v35 (F := Ideal) x0 x1 x2 x3 x5 x6 (ix2 i b)
      = x6 (ix1 i) * Cert.Spmm.joinR (fun b k => x0 (ix2 b k)) (fun i => x1 (ix1 i)) (fun i => x2 (ix1 i)) (fun i => x3 (ix1 i)) b
          (Cert.Spmm.clampIdx 2048 (by decide) (Cert.Spmm.wrapIdx 2048#32 (x5 (ix1 i)))) := by
  rw [val_main_v35_apply, Ideal.mulf_def, val_main_v34_apply, idx34_eq, val_main_v25_apply, idx25_eq, v33_at]

/-- The main scatter. -/
private theorem v38_at (x0 : FVec Ideal S2048x1024 .f32) (x1 x2 : IVec S65536 32) (x3 : FVec Ideal S65536 .f32)
    (x4 x5 : IVec S131072 32) (x6 : FVec Ideal S131072 .f32) (r : Fin 1024) (b : Fin 2048) :
    val_main_v38 (F := Ideal) x0 x1 x2 x3 x4 x5 x6 (ix2 r b)
      = ∑ i ∈ Finset.univ.filter (fun i : Fin 131072 => (x4 (ix1 i)).toInt = (r.val : Int)),
          x6 (ix1 i) * Cert.Spmm.joinR (fun b k => x0 (ix2 b k)) (fun i => x1 (ix1 i)) (fun i => x2 (ix1 i)) (fun i => x3 (ix1 i)) b
            (Cert.Spmm.clampIdx 2048 (by decide) (Cert.Spmm.wrapIdx 2048#32 (x5 (ix1 i)))) := by
  unfold val_main_v38 Host.scatterAdd
  rw [Ideal.hostScatterAdd_def, ScatterRead.scatterAdd_rows_apply _ rfl rfl rfl rfl, val_main_v36_apply,
    val_main_cst_6_apply, Ideal.ofBits_def, Ideal.ofBits_zero_f32, zero_add]
  simp only [v37_at, v35_at]

/-! ### The bias -/

/-- The bias scatter. -/
private theorem v24_at (x7 : IVec S512 32) (x8 : FVec Ideal S512 .f32) (r : Fin 1024) :
    val_main_v24 (F := Ideal) x7 x8 (ix1 r) = Cert.Spmm.bias (fun i => x7 (ix1 i)) (fun i => x8 (ix1 i)) r := by
  unfold val_main_v24 Host.scatterAdd
  rw [Ideal.hostScatterAdd_def, ScatterRead.scatterAdd_flat_apply _ rfl rfl rfl rfl, val_main_v17_apply,
    val_main_cst_1_apply, Ideal.ofBits_def, Ideal.ofBits_zero_f32, zero_add]
  simp only [v23_at]
  rfl

/-- The reference's last stage at entry (b, r) is `outR` of the argument arrays read entry by entry. -/
theorem ref_apply (x0 : FVec Ideal S2048x1024 .f32) (x1 x2 : IVec S65536 32) (x3 : FVec Ideal S65536 .f32)
    (x4 x5 : IVec S131072 32) (x6 : FVec Ideal S131072 .f32) (x7 : IVec S512 32) (x8 : FVec Ideal S512 .f32)
    (b : Fin 2048) (r : Fin 1024) :
    Cert.ReferenceIdeal.Read.val_main_v42 (F := Ideal) x0 x1 x2 x3 x4 x5 x6 x7 x8 (ix2 b r)
      = Cert.Spmm.outR (fun b k => x0 (ix2 b k)) (fun i => x1 (ix1 i)) (fun i => x2 (ix1 i)) (fun i => x3 (ix1 i))
          (fun i => x4 (ix1 i)) (fun i => x5 (ix1 i)) (fun i => x6 (ix1 i)) (fun i => x7 (ix1 i)) (fun i => x8 (ix1 i)) b r := by
  rw [val_main_v42_apply, Ideal.addf_def, val_main_v39_apply, idx39_eq, v38_at, val_main_v41_apply, idx41_eq,
    val_main_v40_apply, idx40_eq, v24_at]
  rfl

end Cert.ReferenceIdeal.RefValue

end
-- ==== Proof.KernelPayload.lean ====
/-
  The kernel body's arithmetic at an entry of its output block: three matrix products into zero, a maximum with
  zero between the first and the third, and the bias row added to every row.
-/
import proofs.«412100_j59004260712486_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The product's two operand indices, axis by axis

The product contracts the left operand's axis 1 with the right operand's axis 0; the left operand's axis 0 is the
result's axis 0 and the right operand's axis 1 is the result's axis 1. -/

/-- The left operand's row is the result's row. -/
private theorem lhs_mm_0 (i : S256x1024.Idx) (c : dot_S256x1024_S1024x1024_S256x1024_1_0_0_1_n_n.contr.Idx) :
    (dot_S256x1024_S1024x1024_S256x1024_1_0_0_1_n_n.lhsIdx i c 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl

/-- The left operand's column is the contracted coordinate. -/
private theorem lhs_mm_1 (i : S256x1024.Idx) (c : dot_S256x1024_S1024x1024_S256x1024_1_0_0_1_n_n.contr.Idx) :
    (dot_S256x1024_S1024x1024_S256x1024_1_0_0_1_n_n.lhsIdx i c 1).val = (c ⟨0, by decide⟩).val :=
  dot_S256x1024_S1024x1024_S256x1024_1_0_0_1_n_n.lhsIdx_val_of_single rfl i c

/-- The right operand's row is the contracted coordinate. -/
private theorem rhs_mm_0 (i : S256x1024.Idx) (c : dot_S256x1024_S1024x1024_S256x1024_1_0_0_1_n_n.contr.Idx) :
    (dot_S256x1024_S1024x1024_S256x1024_1_0_0_1_n_n.rhsIdx i c 0).val = (c ⟨0, by decide⟩).val :=
  dot_S256x1024_S1024x1024_S256x1024_1_0_0_1_n_n.rhsIdx_val_of_single rfl i c

/-- The right operand's column is the result's column. -/
private theorem rhs_mm_1 (i : S256x1024.Idx) (c : dot_S256x1024_S1024x1024_S256x1024_1_0_0_1_n_n.contr.Idx) :
    (dot_S256x1024_S1024x1024_S256x1024_1_0_0_1_n_n.rhsIdx i c 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A product into the zero block, read at entry (p, q): row p of the left operand against column q of the right. -/
private theorem matmul_apply1024 (l : FVec Ideal S256x1024 .bf16) (w : FVec Ideal S1024x1024 .bf16) (p : Fin 256) (q : Fin 1024) :
    matmul dot_S256x1024_S1024x1024_S256x1024_1_0_0_1_n_n none l w (constant (F := Ideal) S256x1024 .f32 0x00000000#32) (ix2 p q)
      = ∑ k : Fin 1024, l (ix2 p k) * w (ix2 k q) := by
  refine (Ideal.matmul_constant_zero_apply dot_S256x1024_S1024x1024_S256x1024_1_0_0_1_n_n none l w (ix2 p q)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

/-- Entry (p, q) of the body's stored block: row p of the x block against column q of the x-part weight, plus the
    hidden row (max with 0 of row p against the embed weight's columns) against column q of the h-part weight, plus
    bias entry q. -/
theorem pay_apply (xb : FVec Ideal S256x1024 .f32) (we wx wh : FVec Ideal S1024x1024 .bf16) (bb : FVec Ideal S1x1024 .f32)
    (p : Fin 256) (q : Fin 1024) :
    k0_pay1 (F := Ideal) xb we wx wh bb (ix2 p q)
      = (∑ k : Fin 1024, xb (ix2 p k) * wx (ix2 k q)
          + ∑ k : Fin 1024, max (∑ j : Fin 1024, xb (ix2 p j) * we (ix2 j k)) 0 * wh (ix2 k q))
        + bb (ix2 0 q) := by
  unfold k0_pay1
  rw [shapeCast_self we, shapeCast_self wx, shapeCast_self wh, shapeCast_self bb]
  show (matmul dot_S256x1024_S1024x1024_S256x1024_1_0_0_1_n_n none (truncf .bf16 xb bitsLt_bf16_f32) wx (constant (F := Ideal) S256x1024 .f32 0x00000000#32) (ix2 p q)
      + matmul dot_S256x1024_S1024x1024_S256x1024_1_0_0_1_n_n none
          (truncf .bf16 (maximumf (matmul dot_S256x1024_S1024x1024_S256x1024_1_0_0_1_n_n none (truncf .bf16 xb bitsLt_bf16_f32) we (constant (F := Ideal) S256x1024 .f32 0x00000000#32))
            (broadcast S256x1024 (Scalar.ofBits (F := Ideal) .f32 0x00000000#32))) bitsLt_bf16_f32)
          wh (constant (F := Ideal) S256x1024 .f32 0x00000000#32) (ix2 p q))
      + broadcastTo S256x1024 bb broadcasts_S1x1024_S256x1024 (ix2 p q) = _
  rw [matmul_apply1024, matmul_apply1024, broadcastTo_1b_ab_apply]
  refine congrArg (· + bb (ix2 0 q)) (congrArg₂ (· + ·) rfl ?_)
  refine Finset.sum_congr rfl fun k _ => ?_
  show max (matmul dot_S256x1024_S1024x1024_S256x1024_1_0_0_1_n_n none (truncf .bf16 xb bitsLt_bf16_f32) we (constant (F := Ideal) S256x1024 .f32 0x00000000#32) (ix2 p k)) (Ideal.ofBits .f32 0x00000000#32)
      * wh (ix2 k q) = _
  rw [matmul_apply1024, Ideal.ofBits_zero_f32]
  rfl

end Cert.KernelIdeal.Body

end
-- ==== Proof.KernelHost.lean ====
/-
  The arrays the kernel's host code hands to the pallas_call, read at an entry: the three dense weight blocks and the
  dense bias row, as sums over the nonzeros whose flattened position is the entry's.
-/
import proofs.«412100_j59004260712486_3_alg».proof.Proof.Gen.KernelIdeal.Frame
import proofs.«412100_j59004260712486_3_alg».proof.Proof.Spec
import proofs.«412100_j59004260712486_3_alg».proof.Proof.LibScatter
import Idealize.ShloMosaic.Lib.Pipeline.Value
import Idealize.ShloMosaic.Lib.StableHlo.Run
import Idealize.ShloMosaic.PureOps.Ideal.Laws

noncomputable section

namespace Cert.KernelIdeal.HostValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The argument arrays as launched, entry by entry. -/
abbrev aX (c : Dev nD) : Fin 2048 → Fin 1024 → EReal := fun b k => (m ((c : Thread nD τ).loc main_arg0) : S2048x1024.Idx → EReal) (ix2 b k)
abbrev aER (c : Dev nD) : Fin 65536 → BitVec 32 := fun i => (m ((c : Thread nD τ).loc main_arg1) : S65536.Idx → BitVec 32) (ix1 i)
abbrev aEC (c : Dev nD) : Fin 65536 → BitVec 32 := fun i => (m ((c : Thread nD τ).loc main_arg2) : S65536.Idx → BitVec 32) (ix1 i)
abbrev aEV (c : Dev nD) : Fin 65536 → EReal := fun i => (m ((c : Thread nD τ).loc main_arg3) : S65536.Idx → EReal) (ix1 i)
abbrev aWR (c : Dev nD) : Fin 131072 → BitVec 32 := fun i => (m ((c : Thread nD τ).loc main_arg4) : S131072.Idx → BitVec 32) (ix1 i)
abbrev aWC (c : Dev nD) : Fin 131072 → BitVec 32 := fun i => (m ((c : Thread nD τ).loc main_arg5) : S131072.Idx → BitVec 32) (ix1 i)
abbrev aWV (c : Dev nD) : Fin 131072 → EReal := fun i => (m ((c : Thread nD τ).loc main_arg6) : S131072.Idx → EReal) (ix1 i)
abbrev aBI (c : Dev nD) : Fin 512 → BitVec 32 := fun i => (m ((c : Thread nD τ).loc main_arg7) : S512.Idx → BitVec 32) (ix1 i)
abbrev aBV (c : Dev nD) : Fin 512 → EReal := fun i => (m ((c : Thread nD τ).loc main_arg8) : S512.Idx → EReal) (ix1 i)

/-! ### The three layout steps, stated once -/

/-- A flat array reshaped to two axes, read at (j, k), is the flat array at position j · C + k. -/
private theorem shapeCast_flat_two {N R C : Nat} {α : Type} (x : (⟨1, ![N]⟩ : Shape).Idx → α)
    (h : (⟨1, ![N]⟩ : Shape).ShapeCasts ⟨2, ![R, C]⟩) (j : Fin R) (k : Fin C) (p : Fin N)
    (hp : p.val = j.val * C + k.val) :
    shapeCast (⟨2, ![R, C]⟩ : Shape) x h (ix2 j k) = x (ix1 p) := by
  refine shapeCast_apply x h (ix2 j k) (ix1 p) ?_
  rw [Shape.rowMajor_val_one, Shape.rowMajor_val_two]
  exact hp

/-- The accumulating scatter of the values `upd` into a zero vector at the positions a key column names, read at
    position `p`: the sum of the values whose key, read signed, is `p`. -/
private theorem scatter_zero_apply {N n : Nat} (d : ScatterDims (⟨1, ![N]⟩ : Shape) ⟨2, ![n, 1]⟩ ⟨1, ![n]⟩)
    (hu : d.updateWindowDims = []) (hi : d.insertedWindowDims = [0]) (hs : d.scatterDimsToOperandDims = [0])
    (hv : d.indexVectorDim = 1)
    (hb0 : S_.BroadcastsInDim (⟨1, ![N]⟩ : Shape) (![] : Fin 0 → Fin 1))
    (hb1 : (⟨1, ![n]⟩ : Shape).BroadcastsInDim (⟨2, ![n, 1]⟩ : Shape) (![0] : Fin 1 → Fin 2))
    (key : IVec (⟨1, ![n]⟩ : Shape) 32) (upd : FVec Ideal (⟨1, ![n]⟩ : Shape) .f32) (p : Fin N) :
    Host.scatterAdd d (broadcastInDim (⟨1, ![N]⟩ : Shape) ![] hb0 (constant (F := Ideal) S_ .f32 0x00000000#32))
        (broadcastInDim (⟨2, ![n, 1]⟩ : Shape) ![0] hb1 key) upd (ix1 p)
      = Cert.Spmm.fiberSum (fun i => key (ix1 i)) (fun i => upd (ix1 i)) (p.val : Int) := by
  refine (ScatterRead.scatterAdd_flat_apply d hu hi hs hv _ _ _ p).trans ?_
  have h0 : broadcastInDim (⟨1, ![N]⟩ : Shape) ![] hb0 (constant (F := Ideal) S_ .f32 0x00000000#32) (ix1 p) = (0 : EReal) :=
    Ideal.ofBits_zero_f32
  rw [h0, zero_add]
  unfold Cert.Spmm.fiberSum
  refine Finset.sum_congr (Finset.filter_congr fun i _ => ?_) (fun i _ => rfl)
  have hk : broadcastInDim (⟨2, ![n, 1]⟩ : Shape) ![0] hb1 key (ix2 i 0) = key (ix1 i) :=
    broadcastInDim_apply _ hb1 key (ix2 i 0) (ix1 i) fun a => by
      match a with
      | ⟨0, _⟩ =>
        show i.val = if n = 1 then 0 else i.val
        split
        · have := i.isLt; omega
        · rfl
  rw [hk]

/-- A block of rows of a matrix, read at (j, k), is the matrix at (first row + j, k). -/
private theorem slice_rows_apply {R R' C : Nat} {α : Type} (off0 : Nat) (x : (⟨2, ![R, C]⟩ : Shape).Idx → α)
    (h : (⟨2, ![R, C]⟩ : Shape).Slices ![off0, 0] ⟨2, ![R', C]⟩) (j : Fin R') (k : Fin C) (j' : Fin R)
    (hj : j'.val = off0 + j.val) :
    extractStridedSlice (⟨2, ![R', C]⟩ : Shape) ![off0, 0] x h (ix2 j k) = x (ix2 j' k) := by
  refine extractStridedSlice_apply _ x h (ix2 j k) (ix2 j' k) fun a => ?_
  match a with
  | ⟨0, _⟩ => exact hj
  | ⟨1, _⟩ => show k.val = 0 + k.val; omega

/-- Window 1's array (the dense transposed embed weight) at entry (j, k). -/
theorem V_embed (c : Dev nD) (j k : Fin 1024) :
    (V m c main_v35 : S1024x1024.Idx → EReal) (ix2 j k) = Cert.Spmm.denseE (aER m c) (aEC m c) (aEV m c) j k := by
  dsimp only [Gen.V, Gen.hostOps0]
  after_results_simp
  refine (truncf_apply (φ := .f32) (ψ := .bf16) _ bitsLt_bf16_f32 _).trans ?_
  refine (shapeCast_flat_two _ shapeCasts_S1048576_S1024x1024 j k ⟨j.val * 1024 + k.val, by omega⟩ rfl).trans ?_
  refine (scatter_zero_apply scatter_S1048576_S65536x1_S65536_n_0_0_1 rfl rfl rfl rfl _ _ _ _ _).trans ?_
  rfl

/-- Window 2's array (rows 0 … 1023 of the dense transposed main weight) at entry (j, k). -/
theorem V_main_x (c : Dev nD) (j k : Fin 1024) :
    (V m c main_v36 : S1024x1024.Idx → EReal) (ix2 j k)
      = Cert.Spmm.denseM (aWR m c) (aWC m c) (aWV m c) ⟨j.val, by omega⟩ k := by
  dsimp only [Gen.V, Gen.hostOps0]
  after_results_simp
  refine (truncf_apply (φ := .f32) (ψ := .bf16) _ bitsLt_bf16_f32 _).trans ?_
  refine (slice_rows_apply 0 _ slices_S2048x1024_S1024x1024_0_0 j k ⟨j.val, by omega⟩ (Nat.zero_add j.val).symm).trans ?_
  refine (shapeCast_flat_two _ shapeCasts_S2097152_S2048x1024 ⟨j.val, by omega⟩ k ⟨j.val * 1024 + k.val, by omega⟩ rfl).trans ?_
  refine (scatter_zero_apply scatter_S2097152_S131072x1_S131072_n_0_0_1 rfl rfl rfl rfl _ _ _ _ _).trans ?_
  rfl

/-- Window 3's array (rows 1024 … 2047 of the dense transposed main weight) at entry (j, k). -/
theorem V_main_h (c : Dev nD) (j k : Fin 1024) :
    (V m c main_v37 : S1024x1024.Idx → EReal) (ix2 j k)
      = Cert.Spmm.denseM (aWR m c) (aWC m c) (aWV m c) ⟨j.val + 1024, by omega⟩ k := by
  dsimp only [Gen.V, Gen.hostOps0]
  after_results_simp
  refine (truncf_apply (φ := .f32) (ψ := .bf16) _ bitsLt_bf16_f32 _).trans ?_
  refine (slice_rows_apply 1024 _ slices_S2048x1024_S1024x1024_1024_0 j k ⟨j.val + 1024, by omega⟩
    (Nat.add_comm j.val 1024)).trans ?_
  refine (shapeCast_flat_two _ shapeCasts_S2097152_S2048x1024 ⟨j.val + 1024, by omega⟩ k
    ⟨(j.val + 1024) * 1024 + k.val, by omega⟩ rfl).trans ?_
  refine (scatter_zero_apply scatter_S2097152_S131072x1_S131072_n_0_0_1 rfl rfl rfl rfl _ _ _ _ _).trans ?_
  rfl

/-- Window 4's array (the dense bias as a row) at entry (0, r). -/
theorem V_bias (c : Dev nD) (r : Fin 1024) :
    (V m c main_v34 : S1x1024.Idx → EReal) (ix2 0 r) = Cert.Spmm.bias (aBI m c) (aBV m c) r := by
  dsimp only [Gen.V, Gen.hostOps0]
  after_results_simp
  refine (broadcastInDim_apply _ bcast_S1024_S1x1024_1 _ (ix2 0 r) (ix1 r) fun a => ?_).trans ?_
  · match a with
    | ⟨0, _⟩ => rfl
  refine (scatter_zero_apply scatter_S1024_S512x1_S512_n_0_0_1 rfl rfl rfl rfl _ _ _ _ _).trans ?_
  rfl

end Cert.KernelIdeal.HostValue

end
-- ==== Proof.KernelValue.lean ====
/-
  The kernel's result array after the run, entry by entry: grid point t writes rows 256·t … 256·t + 255, each entry
  the body's arithmetic on row b of x and the whole weight blocks, so the array is `outK` of the arguments.
-/
import proofs.«412100_j59004260712486_3_alg».proof.Proof.Gen.KernelIdeal.Value
import proofs.«412100_j59004260712486_3_alg».proof.Proof.Spec
import proofs.«412100_j59004260712486_3_alg».proof.Proof.KernelPayload
import proofs.«412100_j59004260712486_3_alg».proof.Proof.KernelHost

noncomputable section

namespace Cert.KernelIdeal.OutValue

open Cert.KernelIdeal Cert.KernelIdeal.Gen Idealize.ShloMosaic Idealize.ShloMosaic.TcCoe Idealize.SL.Sem
open Idealize.ShloMosaic.ValueIdx Cert.KernelIdeal.HostValue
open Idealize.ShloMosaic.Pipeline (Dat)

variable (m : (ℓ : Loc nD τ sig) → Buf (Elt Ideal) ℓ)

/-- Both offsets of a whole-buffer rectangle are zero. -/
private theorem off_zero : (![0, 0] : Fin 2 → Nat) = fun _ => 0 :=
  funext fun a => match a with | ⟨0, _⟩ => rfl | ⟨1, _⟩ => rfl

/-- The arrays the region finds, each at its literal type: x, the dense embed weight, the two halves of the dense main
    weight, the dense bias row. -/
private abbrev arrX (c : Dev nD) : S2048x1024.Idx → EReal := V m c main_arg0
private abbrev arrE (c : Dev nD) : S1024x1024.Idx → EReal := V m c main_v35
private abbrev arrMX (c : Dev nD) : S1024x1024.Idx → EReal := V m c main_v36
private abbrev arrMH (c : Dev nD) : S1024x1024.Idx → EReal := V m c main_v37
private abbrev arrB (c : Dev nD) : S1x1024.Idx → EReal := V m c main_v34

/-- The body's arithmetic on row `b` of `X` against the whole weights, at column `r`: row b against column r of the
    x-part weight, plus the hidden row (max with 0 of row b against the embed weight's columns) against column r of the
    h-part weight, plus bias entry r. -/
private def rowOut (X : S2048x1024.Idx → EReal) (WE WX WH : S1024x1024.Idx → EReal) (BB : S1x1024.Idx → EReal)
    (b : Fin 2048) (r : Fin 1024) : EReal :=
  (∑ k : Fin 1024, X (ix2 b k) * WX (ix2 k r)
    + ∑ k : Fin 1024, max (∑ j : Fin 1024, X (ix2 b j) * WE (ix2 j k)) 0 * WH (ix2 k r))
  + BB (ix2 0 r)

/-- The whole result array as one function of the arrays the region finds. -/
private def G (c : Dev nD) : S2048x1024.Idx → EReal :=
  fun i => rowOut (arrX m c) (arrE m c) (arrMX m c) (arrMH m c) (arrB m c) (i 0) (i 1)

/-- The body's stored entry (p, q) when row p of its x block is row b of `X` and its other blocks are the whole arrays. -/
private theorem pay_rows (xb : FVec Ideal S256x1024 .f32) (we wx wh : FVec Ideal S1024x1024 .bf16) (bb : FVec Ideal S1x1024 .f32)
    (X : S2048x1024.Idx → EReal) (WE WX WH : S1024x1024.Idx → EReal) (BB : S1x1024.Idx → EReal)
    (p : Fin 256) (q : Fin 1024) (b : Fin 2048)
    (hx : ∀ k : Fin 1024, xb (ix2 p k) = X (ix2 b k))
    (hwe : ∀ j k : Fin 1024, we (ix2 j k) = WE (ix2 j k))
    (hwx : ∀ j k : Fin 1024, wx (ix2 j k) = WX (ix2 j k))
    (hwh : ∀ j k : Fin 1024, wh (ix2 j k) = WH (ix2 j k))
    (hbb : ∀ k : Fin 1024, bb (ix2 0 k) = BB (ix2 0 k)) :
    k0_pay1 (F := Ideal) xb we wx wh bb (ix2 p q) = rowOut X WE WX WH BB b q := by
  rw [Body.pay_apply]
  unfold rowOut
  simp only [hx, hwe, hwx, hwh, hbb]

/-- The windows' block indices at every grid point: the x block and the output block sit at (t, 0), the weights and the
    bias row at (0, 0). -/
private theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The x block at point t, entry (p, k), is entry (256·t + p, k) of x. -/
private theorem xblock_apply (c : Dev nD) (t : Fin cfg0.N) (p : Fin 256) (k : Fin 1024) (b : Fin 2048)
    (hb : b.val = t.val * 256 + p.val) :
    (iblk m c 0 t : S256x1024.Idx → EReal) (ix2 p k) = arrX m c (ix2 b k) := by
  obtain ⟨e0, e1, -⟩ := block_indices t
  unfold iblk
  rw [View.read_apply]
  show V m c main_arg0 _ = V m c main_arg0 _
  congr 1
  funext a; apply Fin.ext
  match a with
  | ⟨0, _⟩ => show win0_0.index t (0 : Fin 2) * 256 + 1 * p.val = b.val; omega
  | ⟨1, _⟩ => show win0_0.index t (1 : Fin 2) * 1024 + 1 * k.val = k.val; omega

/-- The embed-weight block at every point is the whole array. -/
private theorem eblock_apply (c : Dev nD) (t : Fin cfg0.N) (j k : Fin 1024) :
    (iblk m c 1 t : S1024x1024.Idx → EReal) (ix2 j k) = arrE m c (ix2 j k) := by
  obtain ⟨-, -, e0, e1, -⟩ := block_indices t
  unfold iblk
  rw [View.read_apply]
  show V m c main_v35 _ = V m c main_v35 _
  congr 1
  funext a; apply Fin.ext
  match a with
  | ⟨0, _⟩ => show win0_1.index t (0 : Fin 2) * 1024 + 1 * j.val = j.val; omega
  | ⟨1, _⟩ => show win0_1.index t (1 : Fin 2) * 1024 + 1 * k.val = k.val; omega

/-- The x-part weight block at every point is the whole array. -/
private theorem mxblock_apply (c : Dev nD) (t : Fin cfg0.N) (j k : Fin 1024) :
    (iblk m c 2 t : S1024x1024.Idx → EReal) (ix2 j k) = arrMX m c (ix2 j k) := by
  obtain ⟨-, -, -, -, e0, e1, -⟩ := block_indices t
  unfold iblk
  rw [View.read_apply]
  show V m c main_v36 _ = V m c main_v36 _
  congr 1
  funext a; apply Fin.ext
  match a with
  | ⟨0, _⟩ => show win0_2.index t (0 : Fin 2) * 1024 + 1 * j.val = j.val; omega
  | ⟨1, _⟩ => show win0_2.index t (1 : Fin 2) * 1024 + 1 * k.val = k.val; omega

/-- The h-part weight block at every point is the whole array. -/
private theorem mhblock_apply (c : Dev nD) (t : Fin cfg0.N) (j k : Fin 1024) :
    (iblk m c 3 t : S1024x1024.Idx → EReal) (ix2 j k) = arrMH m c (ix2 j k) := by
  obtain ⟨-, -, -, -, -, -, e0, e1, -⟩ := block_indices t
  unfold iblk
  rw [View.read_apply]
  show V m c main_v37 _ = V m c main_v37 _
  congr 1
  funext a; apply Fin.ext
  match a with
  | ⟨0, _⟩ => show win0_3.index t (0 : Fin 2) * 1024 + 1 * j.val = j.val; omega
  | ⟨1, _⟩ => show win0_3.index t (1 : Fin 2) * 1024 + 1 * k.val = k.val; omega

/-- The bias block at every point is the whole row. -/
private theorem bblock_apply (c : Dev nD) (t : Fin cfg0.N) (k : Fin 1024) :
    (iblk m c 4 t : S1x1024.Idx → EReal) (ix2 0 k) = arrB m c (ix2 0 k) := by
  obtain ⟨-, -, -, -, -, -, -, -, e0, e1, -⟩ := block_indices t
  unfold iblk
  rw [View.read_apply]
  show V m c main_v34 _ = V m c main_v34 _
  congr 1
  funext a; apply Fin.ext
  match a with
  | ⟨0, _⟩ => show win0_4.index t (0 : Fin 2) * 1 + 1 * (0 : Fin 1).val = (0 : Fin 1).val; omega
  | ⟨1, _⟩ => show win0_4.index t (1 : Fin 2) * 1024 + 1 * k.val = k.val; omega

/-- Entry (p, q) of the output block at point t is entry (256·t + p, q) of the array. -/
private theorem out_emb (t : Fin cfg0.N) (p : Fin 256) (q : Fin 1024) (b : Fin 2048) (hb : b.val = t.val * 256 + p.val) :
    ((cfg0.win 5).blk t).view.emb (ix2 p q) = (ix2 b q : S2048x1024.Idx) := by
  obtain ⟨-, -, -, -, -, -, -, -, -, -, e0, e1⟩ := block_indices t
  funext a; apply Fin.ext
  match a with
  | ⟨0, _⟩ => show win0_5.index t (0 : Fin 2) * 256 + 1 * p.val = b.val; omega
  | ⟨1, _⟩ => show win0_5.index t (1 : Fin 2) * 1024 + 1 * q.val = q.val; omega

/-- What point t writes back is block t of `G`. -/
private theorem flushed_eq (c : Dev nD) (t : Fin cfg0.N) :
    (dats m 0 c).flushed 5 t = ((cfg0.win 5).blk t).view.read (Elt Ideal) (G m c) := by
  rw [Value.flushed5]
  unfold Gen.out0_5
  rw [View.canon_unit_zero off_zero]
  simp only [View.ld_unit_zero (S := S256x1024) off_zero, View.ld_unit_zero (S := S1024x1024) off_zero,
    View.ld_unit_zero (S := S1x1024) off_zero]
  funext y
  obtain ⟨p, q, rfl⟩ : ∃ (p : Fin 256) (q : Fin 1024), y = ix2 p q := ⟨y 0, y 1, eq_ix2 y⟩
  have ht : t.val < 8 := lt_of_lt_of_eq t.isLt N_0
  show k0_pay1 (F := Ideal) (iblk m c 0 t) (iblk m c 1 t) (iblk m c 2 t) (iblk m c 3 t) (iblk m c 4 t) (ix2 p q)
    = G m c (((cfg0.win 5).blk t).view.emb (ix2 p q))
  rw [out_emb t p q ⟨t.val * 256 + p.val, by omega⟩ rfl]
  exact pay_rows (iblk m c 0 t) (iblk m c 1 t) (iblk m c 2 t) (iblk m c 3 t) (iblk m c 4 t)
    (arrX m c) (arrE m c) (arrMX m c) (arrMH m c) (arrB m c) p q ⟨t.val * 256 + p.val, by omega⟩
    (fun k => xblock_apply m c t p k _ rfl) (fun j k => eblock_apply m c t j k) (fun j k => mxblock_apply m c t j k)
    (fun j k => mhblock_apply m c t j k) (fun k => bblock_apply m c t k)

/-- An index of the array is in point t's block iff each coordinate is in the block's range on its axis. -/
private theorem mem_blk (t : Fin cfg0.N) (i : S2048x1024.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v38).slice (win0_5.rect t)).set ↔ _
  rw [View.set_slice_whole, Rect.mem_set_unit]
  exact Iff.rfl

/-- Every entry of the array is in some point's block: row b in point b / 256's. -/
private theorem cover (i : S2048x1024.Idx) :
    ∃ t : Fin cfg0.N, (cfg0.win 5).flush t = true ∧ i ∈ ((cfg0.win 5).blk t).view.set := by
  have hi0 : (i 0).val < 2048 := (i 0).isLt
  have hi1 : (i 1).val < 1024 := (i 1).isLt
  obtain ⟨t, ht⟩ : ∃ t : Fin cfg0.N, t.val = (i 0).val / 256 :=
    ⟨⟨(i 0).val / 256, lt_of_lt_of_eq (by omega : (i 0).val / 256 < 8) N_0.symm⟩, rfl⟩
  obtain ⟨-, -, -, -, -, -, -, -, -, -, e0, e1⟩ := block_indices t
  refine ⟨t, flush0_5 t, ?_⟩
  rw [mem_blk]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 1024 ≤ (i 1).val ∧ (i 1).val < win0_5.index t (1 : Fin 2) * 1024 + 1024
    omega

/-- The array after the run is `G`. -/
private theorem final (c : Dev nD) : (dats m 0 c).arrAt 5 cfg0.N = G m c :=
  (dats m 0 c).arrAt_eq_of_cover 5 (G m c) (fun t _ => flushed_eq m c t) cover

/-- The output array after the run, at entry (b, r), is `outK` of the arguments as launched. -/
theorem kernel_value (c : Dev nD) (b : Fin 2048) (r : Fin 1024) :
    ((dats m 0 c).arrAt 5 cfg0.N : S2048x1024.Idx → EReal) (ix2 b r)
      = Cert.Spmm.outK (aX m c) (aER m c) (aEC m c) (aEV m c) (aWR m c) (aWC m c) (aWV m c) (aBI m c) (aBV m c) b r := by
  rw [final m c]
  show rowOut (arrX m c) (arrE m c) (arrMX m c) (arrMH m c) (arrB m c) b r = _
  have hX : ∀ k : Fin 1024, arrX m c (ix2 b k) = aX m c b k := fun k => congrFun (V_main_arg0 m c) (ix2 b k)
  unfold rowOut Cert.Spmm.outK Cert.Spmm.hidK
  exact congrArg₂ (· + ·) (congrArg₂ (· + ·)
      (Finset.sum_congr rfl fun k _ => congrArg₂ (· * ·) (hX k) (V_main_x m c k r))
      (Finset.sum_congr rfl fun k _ => congrArg₂ (· * ·)
        (congrArg (fun z => max z 0) (Finset.sum_congr rfl fun j _ => congrArg₂ (· * ·) (hX j) (V_embed m c j k)))
        (V_main_h m c k r)))
    (V_bias m c r)

end Cert.KernelIdeal.OutValue

end
-- ==== Proof.lean ====
/-
  The certificate of a fused sparse-weight layer: a sparse COO product with a ReLU (the embed), the features joined
  with the input, a second sparse COO product, and a dense form of a sparse bias.  The reference gathers a column of
  the features per nonzero and adds the scaled columns into the rows the row indices name; the kernel makes the two
  sparse weights dense on the host — adding each value at its flattened position col · 1024 + row — and runs three
  dense matrix products in one pallas_call over eight blocks of 256 rows.

  The two results agree wherever every row and column index names a row or column of its weight (outside that range
  the reference clamps or drops a nonzero that the kernel's flattened position would place elsewhere), and the float
  entries are real: the precondition says both.  The kernel's array is read off its run block by block
  (Proof/KernelValue.lean over Proof/KernelPayload.lean and Proof/KernelHost.lean), the reference's off its run one
  operation at a time (Proof/RefRead.lean); Proof/Algebra.lean shows the two forms are one function, by exchanging
  the sum over the nonzeros of a row with the sum over columns; Proof/PreDecode.lean reads the precondition.
-/
import proofs.«412100_j59004260712486_3_alg».proof.Defs
import proofs.«412100_j59004260712486_3_alg».proof.Proof.Gen.Kernel
import proofs.«412100_j59004260712486_3_alg».proof.Proof.Gen.Kernel.Skeleton
import proofs.«412100_j59004260712486_3_alg».proof.Proof.Gen.Kernel.Launch
import proofs.«412100_j59004260712486_3_alg».proof.Proof.Gen.Kernel.Points
import proofs.«412100_j59004260712486_3_alg».proof.Proof.Gen.Kernel.Frame
import proofs.«412100_j59004260712486_3_alg».proof.Proof.Gen.KernelIdeal
import proofs.«412100_j59004260712486_3_alg».proof.Proof.Gen.KernelIdeal.Skeleton
import proofs.«412100_j59004260712486_3_alg».proof.Proof.Gen.KernelIdeal.Launch
import proofs.«412100_j59004260712486_3_alg».proof.Proof.Gen.KernelIdeal.Points
import proofs.«412100_j59004260712486_3_alg».proof.Proof.Gen.KernelIdeal.Frame
import proofs.«412100_j59004260712486_3_alg».proof.Proof.Gen.ReferenceIdeal
import proofs.«412100_j59004260712486_3_alg».proof.Proof.Gen.KernelIdeal.Value
import proofs.«412100_j59004260712486_3_alg».proof.Proof.Gen.ReferenceIdeal.Run
import proofs.«412100_j59004260712486_3_alg».proof.Proof.Gen.ReferenceIdeal.Read
import proofs.«412100_j59004260712486_3_alg».proof.Proof.Gen.Pre_finite_inputs
import proofs.«412100_j59004260712486_3_alg».proof.Proof.Spec
import proofs.«412100_j59004260712486_3_alg».proof.Proof.Algebra
import proofs.«412100_j59004260712486_3_alg».proof.Proof.PreDecode
import proofs.«412100_j59004260712486_3_alg».proof.Proof.RefRead
import proofs.«412100_j59004260712486_3_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

section
variable [Cert.Kernel.Facts] [Cert.KernelIdeal.Facts] [Cert.ReferenceIdeal.Facts] [Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the same function of the arguments: entry (b, r) of the kernel's is the
    dense-product form, of the reference's the gather-and-add form, and on admissible arguments the two agree. -/
theorem algebraic : Cert.algebraic_KernelIdeal_ReferenceIdeal := by
  intro m ρ m' ρ' hpre hagree
  refine ⟨fun c => (Cert.KernelIdeal.Gen.dats m 0 c).arrAt 5 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  funext i
  obtain ⟨b, r, rfl⟩ : ∃ (b : Fin 2048) (r : Fin 1024), i = ix2 b r := ⟨i 0, i 1, eq_ix2 i⟩
  rw [Cert.ReferenceIdeal.RefValue.ref_apply]
  refine Eq.trans ?_ (Cert.KernelIdeal.OutValue.kernel_value m c b r).symm
  exact (Cert.Spmm.outK_eq_outR _ _ _ _ _ _ _ _ _ (Cert.Spmm.admissible_of_pre _ _ _ _ _ _ _ _ _ (hpre c)) b r).symm

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
